-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S4x8192x2048 : Shape := ⟨3, ![4, 8192, 2048]⟩
abbrev S64x64 : Shape := ⟨2, ![64, 64]⟩
abbrev S64 : Shape := ⟨1, ![64]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x2048 : S_.BroadcastsInDim S4x8192x2048 (![] : Fin 0 → Fin S4x8192x2048.rank)
  reducesTo_S4x8192x2048_S_d0_1_2 : S4x8192x2048.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x8192x64 .f32) (main_arg1 : FVec F S4x8192x2048 .f32) (main_arg2 : FVec F S64x64 .f32) (main_arg3 : FVec F S64 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x2048 .f32 := Host.absf main_arg1
  let main_cst_0 : FVec F S_ .f32 := constant S_ .f32 0x7F800000#32
  let main_v5 : FVec F S4x8192x2048 .f32 := broadcastInDim S4x8192x2048 ![] bcast_S_S4x8192x2048 main_cst_0
  let main_v6 : IVec S4x8192x2048 1 := cmpf .olt main_v4 main_v5
  let main_c_1 : IVec S_ 1 := constantI S_ 1 1#1
  let main_v7 : IVec S_ 1 := (fun x v => Host.reduce IntOp.andi x v reducesTo_S4x8192x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x8192x64 : Shape := ⟨3, ![4, 8192, 64]⟩
abbrev S4x8192x2048 : Shape := ⟨3, ![4, 8192, 2048]⟩
abbrev S64x64 : Shape := ⟨2, ![64, 64]⟩
abbrev S64 : Shape := ⟨1, ![64]⟩
abbrev S4x64x2048 : Shape := ⟨3, ![4, 64, 2048]⟩
abbrev S1x1024x2048 : Shape := ⟨3, ![1, 1024, 2048]⟩
abbrev S1x1024x64 : Shape := ⟨3, ![1, 1024, 64]⟩
abbrev S1x64x2048 : Shape := ⟨3, ![1, 64, 2048]⟩
abbrev S64x2048 : Shape := ⟨2, ![64, 2048]⟩
abbrev S1x2048 : Shape := ⟨2, ![1, 2048]⟩
abbrev S1024x2048 : Shape := ⟨2, ![1024, 2048]⟩
abbrev S1024x64 : Shape := ⟨2, ![1024, 64]⟩
abbrev S2048 : Shape := ⟨1, ![2048]⟩
abbrev S1x64 : Shape := ⟨2, ![1, 64]⟩
abbrev S1024 : Shape := ⟨1, ![1024]⟩
abbrev S1024x1 : Shape := ⟨2, ![1024, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x8192x64, .f32⟩
  | .hbm, ⟨1, _⟩ => ⟨S4x8192x2048, .f32⟩
  | .hbm, ⟨2, _⟩ => ⟨S64x64, .f32⟩
  | .hbm, ⟨3, _⟩ => ⟨S64, .f32⟩
  | .hbm, ⟨4, _⟩ => ⟨S4x64x2048, .f32⟩
  | .hbm, ⟨5, _⟩ => ⟨S1x64, .f32⟩
  | .hbm, ⟨6, _⟩ => ⟨S4x8192x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x64, .f32⟩
  | .local _ .vmem, ⟨3, _⟩ => ⟨S1x1024x64, .f32⟩
  | .local _ .vmem, ⟨4, _⟩ => ⟨S64x64, .f32⟩
  | .local _ .vmem, ⟨5, _⟩ => ⟨S1x64x2048, .f32⟩
  | .local _ .vmem, ⟨6, _⟩ => ⟨S1x64x2048, .f32⟩
  | .local _ .vmem, ⟨7, _⟩ => ⟨S64x2048, .f32⟩
  | .local _ .vmem, ⟨8, _⟩ => ⟨S1x2048, .f32⟩
  | .local _ .vmem, ⟨9, _⟩ => ⟨S1x1024x2048, .f32⟩
  | .local _ .vmem, ⟨10, _⟩ => ⟨S1x1024x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64, .f32⟩
  | .local _ .vmem, ⟨14, _⟩ => ⟨S1x1024x64, .f32⟩
  | .local _ .vmem, ⟨15, _⟩ => ⟨S1x1024x64, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  reduces_S1024x2048_S2048 : S1024x2048.Reduces [0] S2048
  shapeCasts_S2048_S1x2048 : S2048.ShapeCasts S1x2048
  broadcasts_S1x2048_S64x2048 : S1x2048.Broadcasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1024x2048_S1024 : S1024x2048.Reduces [1] S1024
  shapeCasts_S1024_S1024x1 : S1024.ShapeCasts S1024x1
  broadcasts_S1024x1_S1024x64 : S1024x1.Broadcasts S1024x64
  broadcasts_S1x64_S1024x64 : S1x64.Broadcasts S1024x64
  shapeCasts_S1024x64_S1x1024x64 : S1024x64.ShapeCasts S1x1024x64
  dot_S1024x64_S64x64_S1024x64_1_0_0_1_n_n_wf : DotDims.WF S1024x64 S64x64 S1024x64 [1] [0] [0] [1] [] []
  dot_S1024x64_S1024x2048_S64x2048_0_0_1_1_n_n_wf : DotDims.WF S1024x64 S1024x2048 S64x2048 [0] [0] [1] [1] [] []
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x8192x2048.size a
  hwx0_0 : ∀ i : grid0.Coords, EltTy.bits .f32 = 32 ∨ (Rect.block (s := S4x8192x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S4x8192x64.size a
  hwx0_1 : ∀ i : grid0.Coords, EltTy.bits .f32 = 32 ∨ (Rect.block (s := S4x8192x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S4x64x2048.size a
  hwx0_3 : ∀ i : grid0.Coords, EltTy.bits .f32 = 32 ∨ (Rect.block (s := S4x64x2048) S1x64x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S4x8192x2048.size a
  hwx1_0 : ∀ i : grid1.Coords, EltTy.bits .f32 = 32 ∨ (Rect.block (s := S4x8192x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x2048.size a ≤ S4x64x2048.size a
  hwx1_1 : ∀ i : grid1.Coords, EltTy.bits .f32 = 32 ∨ (Rect.block (s := S4x64x2048) S1x64x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x8192x64.size a
  hwx1_3 : ∀ i : grid1.Coords, EltTy.bits .f32 = 32 ∨ (Rect.block (s := S4x8192x64) S1x1024x64.size (cc1_transform_3 i) (hinb1_3 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S1024x2048_S64x2048_0_0_1_1_n_n : DotDims S1024x64 S1024x2048 S64x2048 where
  lhsContracting := [0]
  rhsContracting := [0]
  lhsNonContracting := [1]
  rhsNonContracting := [1]
  lhsBatch := []
  rhsBatch := []
  wf := dot_S1024x64_S1024x2048_S64x2048_0_0_1_1_n_n_wf
def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8192x64 : Shape := ⟨3, ![4, 8192, 64]⟩
abbrev S4x8192x2048 : Shape := ⟨3, ![4, 8192, 2048]⟩
abbrev S64x64 : Shape := ⟨2, ![64, 64]⟩
abbrev S64 : Shape := ⟨1, ![64]⟩
abbrev S_ : Shape := ⟨0, ![]⟩
abbrev S4x2048 : Shape := ⟨2, ![4, 2048]⟩
abbrev S4x2048x64 : Shape := ⟨3, ![4, 2048, 64]⟩
abbrev S4x2048x1 : Shape := ⟨3, ![4, 2048, 1]⟩
abbrev S4x8192 : Shape := ⟨2, ![4, 8192]⟩
abbrev S4x8192x1 : Shape := ⟨3, ![4, 8192, 1]⟩
abbrev S1x1x64 : Shape := ⟨3, ![1, 1, 64]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x2048, .f32⟩
  | .hbm, ⟨2, _⟩ => ⟨S64x64, .f32⟩
  | .hbm, ⟨3, _⟩ => ⟨S64, .f32⟩
  | .hbm, ⟨4, _⟩ => ⟨S4x8192x64, .f32⟩
  | .hbm, ⟨5, _⟩ => ⟨S_, .f32⟩
  | .hbm, ⟨6, _⟩ => ⟨S4x2048, .f32⟩
  | .hbm, ⟨7, _⟩ => ⟨S4x2048x64, .f32⟩
  | .hbm, ⟨8, _⟩ => ⟨S4x2048x1, .f32⟩
  | .hbm, ⟨9, _⟩ => ⟨S4x2048x64, .f32⟩
  | .hbm, ⟨10, _⟩ => ⟨S4x2048x64, .f32⟩
  | .hbm, ⟨11, _⟩ => ⟨S_, .f32⟩
  | .hbm, ⟨12, _⟩ => ⟨S4x8192, .f32⟩
  | .hbm, ⟨13, _⟩ => ⟨S4x8192x64, .f32⟩
  | .hbm, ⟨14, _⟩ => ⟨S4x8192x1, .f32⟩
  | .hbm, ⟨15, _⟩ => ⟨S4x8192x64, .f32⟩
  | .hbm, ⟨16, _⟩ => ⟨S4x8192x64, .f32⟩
  | .hbm, ⟨17, _⟩ => ⟨S1x1x64, .f32⟩
  | .hbm, ⟨18, _⟩ => ⟨S4x8192x64, .f32⟩
  | .hbm, ⟨19, _⟩ => ⟨S4x8192x64, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S4x8192x2048_S4x2048_d1 : S4x8192x2048.ReducesTo [1] S4x2048
  h_S_ : 0 < S_.numel
  bcast_S4x2048_S4x2048x1_0_1 : S4x2048.BroadcastsInDim S4x2048x1 (![0, 1] : Fin 2 → Fin S4x2048x1.rank)
  bcast_S4x2048x1_S4x2048x64_0_1_2 : S4x2048x1.BroadcastsInDim S4x2048x64 (![0, 1, 2] : Fin 3 → Fin S4x2048x64.rank)
  reducesTo_S4x8192x2048_S4x8192_d2 : S4x8192x2048.ReducesTo [2] S4x8192
  bcast_S4x8192_S4x8192x1_0_1 : S4x8192.BroadcastsInDim S4x8192x1 (![0, 1] : Fin 2 → Fin S4x8192x1.rank)
  bcast_S4x8192x1_S4x8192x64_0_1_2 : S4x8192x1.BroadcastsInDim S4x8192x64 (![0, 1, 2] : Fin 3 → Fin S4x8192x64.rank)
  bcast_S64_S1x1x64_2 : S64.BroadcastsInDim S1x1x64 (![2] : Fin 1 → Fin S1x1x64.rank)
  bcast_S1x1x64_S4x8192x64_0_1_2 : S1x1x64.BroadcastsInDim S4x8192x64 (![0, 1, 2] : Fin 3 → Fin S4x8192x64.rank)
  dot_S4x8192x64_S64x64_S4x8192x64_2_0_01_1_n_n_wf : DotDims.WF S4x8192x64 S64x64 S4x8192x64 [2] [0] [0, 1] [1] [] []
  dot_S4x8192x2048_S4x8192x64_S4x2048x64_1_1_2_2_0_0_wf : DotDims.WF S4x8192x2048 S4x8192x64 S4x2048x64 [1] [1] [2] [2] [0] [0]
  dot_S4x8192x2048_S4x2048x64_S4x8192x64_2_1_1_2_0_0_wf : DotDims.WF S4x8192x2048 S4x2048x64 S4x8192x64 [2] [1] [1] [2] [0] [0]

variable [Facts₀]

def dot_S4x8192x64_S64x64_S4x8192x64_2_0_01_1_n_n : DotDims S4x8192x64 S64x64 S4x8192x64 where
  lhsContracting := [2]
  rhsContracting := [0]
  lhsNonContracting := [0, 1]
  rhsNonContracting := [1]
  lhsBatch := []
  rhsBatch := []
  wf := dot_S4x8192x64_S64x64_S4x8192x64_2_0_01_1_n_n_wf
def dot_S4x8192x2048_S4x8192x64_S4x2048x64_1_1_2_2_0_0 : DotDims S4x8192x2048 S4x8192x64 S4x2048x64 where
  lhsContracting := [1]
  rhsContracting := [1]
  lhsNonContracting := [2]
  rhsNonContracting := [2]
  lhsBatch := [0]
  rhsBatch := [0]
  wf := dot_S4x8192x2048_S4x8192x64_S4x2048x64_1_1_2_2_0_0_wf
def dot_S4x8192x2048_S4x2048x64_S4x8192x64_2_1_1_2_0_0 : DotDims S4x8192x2048 S4x2048x64 S4x8192x64 where
  lhsContracting := [2]
  rhsContracting := [1]
  lhsNonContracting := [1]
  rhsNonContracting := [2]
  lhsBatch := [0]
  rhsBatch := [0]
  wf := dot_S4x8192x2048_S4x2048x64_S4x8192x64_2_1_1_2_0_0_wf

class Facts : Prop extends Facts₀ where

variable [Facts]
-- ==== Proof.BitsBody0.lean ====
/-
  The first pallas_call (the hyperedge pass): over the eight node tiles of one batch element it accumulates, in two
  scratch buffers kept across grid points, the projected features summed over the nodes of each hyperedge
  (a 64 × 2048 block) and the hyperedges' degrees (a 1 × 2048 row); the first tile of a batch element starts both
  from zero, and the last tile stores their quotient as the batch element's output block. The output block is
  written at the last tile only; at the other tiles its buffer is handed back as found. Stated at any entry
  contents `V` of the core's buffers and at any float instance.
-/
import proofs.«126929_j11639361372554_1_alg».proof.Proof.Gen.Kernel.Launch
import proofs.«126929_j11639361372554_1_alg».proof.Proof.Gen.Kernel.Skeleton
import proofs.«126929_j11639361372554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which tile a grid point is: the body's two branch conditions, decided over the grid -/

/-- The first node tile of a batch element (the accumulators are reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The last node tile of a batch element (the quotient is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The three inputs are used at every point; the output block is untouched, and not written back, except at a last tile. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## Whole-buffer accesses -/

theorem hz2 : (![0, 0] : Fin 2 → Nat) = fun _ => 0 := by funext a; fin_cases a <;> rfl
theorem hz3 : (![0, 0, 0] : Fin 3 → Nat) = fun _ => 0 := by funext a; fin_cases a <;> rfl

/-- A buffer whose LAST store filled it whole reads back that store's payload, whatever was stored before. -/
theorem read_writes_head {S : Shape} {e : EltTy} {sg : RefSig} {κ : Kind} {sp : Space} (v : View sg κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h inb w L]

/-- Closes "this buffer, read back after the run's stores, holds this payload": the last store filled the buffer
    whole, and every load of the run was of a whole buffer, either untouched or just stored. -/
local macro "whole_rw" : tactic => `(tactic| (
  try sl_unfold_words
  first
    | rw [read_writes_head (S := S64x2048) _ _ hz2]
    | rw [read_writes_head (S := S1x2048) _ _ hz2]
    | rw [read_writes_head (S := S1x64x2048) _ _ hz3]
  simp only [View.readAt_eq_ld, View.ld_unit_zero (S := S1x1024x2048) hz3, View.ld_unit_zero (S := S1x1024x64) hz3,
    View.ld_unit_zero (S := S64x64) hz2, View.ld_unit_zero (S := S64x2048) hz2, View.ld_unit_zero (S := S1x2048) hz2,
    View.readCov_unit_zero (S := S64x2048) _ hz2, View.readCov_unit_zero (S := S1x2048) _ hz2]))

/-! ## The body, tile by tile -/

set_option maxHeartbeats 2000000 in
/-- A FIRST tile (not also a last one): both accumulators are zeroed, then the tile's contribution is added; the
    output block is handed back as found. -/
theorem sound_kernel0_A (c : Dev nD) (E : Set ℕ) (i : grid0.Coords)
    (arg2 : Memref sig .tc .vmem S1x1024x2048 .f32) (harg2 : arg2.IsWhole) (arg3 : Memref sig .tc .vmem S1x1024x64 .f32) (harg3 : arg3.IsWhole)
    (arg4 : Memref sig .tc .vmem S64x64 .f32) (harg4 : arg4.IsWhole) (arg5 : Memref sig .tc .vmem S1x64x2048 .f32) (harg5 : arg5.IsWhole)
    (arg6 : Memref sig .tc .vmem S64x2048 .f32) (harg6 : arg6.IsWhole) (arg7 : Memref sig .tc .vmem S1x2048 .f32) (harg7 : arg7.IsWhole)
    (hc0 : cond0_0 i) (hc1 : ¬cond0_1 i)
    (x0 : Vec F S1x1024x2048 .f32) (x1 : Vec F S1x1024x64 .f32) (x2 : Vec F S64x64 .f32) (xi3 : Vec F S1x64x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ a, owns (c : Thread nD τ) arg6 fullShare a) ∗ (∃ dg, owns (c : Thread nD τ) arg7 fullShare dg)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay4 x0 x1 x2 k0_pay1)
            ∗ owns (c : Thread nD τ) arg7 fullShare (k0_pay5 x0 k0_pay2)) -∗ K ⟨⟩))
      ⊢ wp frame (wpE (defs₀ (F := F)) Variants.none c none) E (cc0__xe_kernel i arg2 harg2 arg3 harg3 arg4 harg4 arg5 harg5 arg6 harg6 arg7 harg7) K := by
  simp only [cc0__xe_kernel_eq_skeleton]; unfold cc0__xe_kernel_skel
  unfold owns
  iintro ⟨⟨%f0, %hf0, H0⟩, ⟨%f1, %hf1, H1⟩, ⟨%f2, %hf2, H2⟩, ⟨%f3, %hf3, H3⟩, ⟨%a, %f6, -, H6⟩, ⟨%dg, %f7, -, H7⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    whole_rw
  iexists _; isplitr
  swap; · iexact H7
  ipureintro
  whole_rw

set_option maxHeartbeats 2000000 in
/-- A MIDDLE tile: the tile's contribution is added to both accumulators; the output block is handed back as found. -/
theorem sound_kernel0_B (c : Dev nD) (E : Set ℕ) (i : grid0.Coords)
    (arg2 : Memref sig .tc .vmem S1x1024x2048 .f32) (harg2 : arg2.IsWhole) (arg3 : Memref sig .tc .vmem S1x1024x64 .f32) (harg3 : arg3.IsWhole)
    (arg4 : Memref sig .tc .vmem S64x64 .f32) (harg4 : arg4.IsWhole) (arg5 : Memref sig .tc .vmem S1x64x2048 .f32) (harg5 : arg5.IsWhole)
    (arg6 : Memref sig .tc .vmem S64x2048 .f32) (harg6 : arg6.IsWhole) (arg7 : Memref sig .tc .vmem S1x2048 .f32) (harg7 : arg7.IsWhole)
    (hc0 : ¬cond0_0 i) (hc1 : ¬cond0_1 i)
    (x0 : Vec F S1x1024x2048 .f32) (x1 : Vec F S1x1024x64 .f32) (x2 : Vec F S64x64 .f32) (xi3 : Vec F S1x64x2048 .f32)
    (a : Vec F S64x2048 .f32) (dg : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare a ∗ owns (c : Thread nD τ) arg7 fullShare dg
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay4 x0 x1 x2 a)
            ∗ owns (c : Thread nD τ) arg7 fullShare (k0_pay5 x0 dg)) -∗ K ⟨⟩))
      ⊢ wp frame (wpE (defs₀ (F := F)) Variants.none c none) E (cc0__xe_kernel i arg2 harg2 arg3 harg3 arg4 harg4 arg5 harg5 arg6 harg6 arg7 harg7) K := by
  simp only [cc0__xe_kernel_eq_skeleton]; unfold cc0__xe_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    whole_rw
  iexists _; isplitr
  swap; · iexact H7
  ipureintro
  whole_rw

set_option maxHeartbeats 2000000 in
/-- A LAST tile (not also a first one): the tile's contribution is added to both accumulators, and the output
    block is stored: the feature accumulator divided, column by column, by the degree accumulator. -/
theorem sound_kernel0_C (c : Dev nD) (E : Set ℕ) (i : grid0.Coords)
    (arg2 : Memref sig .tc .vmem S1x1024x2048 .f32) (harg2 : arg2.IsWhole) (arg3 : Memref sig .tc .vmem S1x1024x64 .f32) (harg3 : arg3.IsWhole)
    (arg4 : Memref sig .tc .vmem S64x64 .f32) (harg4 : arg4.IsWhole) (arg5 : Memref sig .tc .vmem S1x64x2048 .f32) (harg5 : arg5.IsWhole)
    (arg6 : Memref sig .tc .vmem S64x2048 .f32) (harg6 : arg6.IsWhole) (arg7 : Memref sig .tc .vmem S1x2048 .f32) (harg7 : arg7.IsWhole)
    (hc0 : ¬cond0_0 i) (hc1 : cond0_1 i)
    (x0 : Vec F S1x1024x2048 .f32) (x1 : Vec F S1x1024x64 .f32) (x2 : Vec F S64x64 .f32)
    (a : Vec F S64x2048 .f32) (dg : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a ∗ owns (c : Thread nD τ) arg7 fullShare dg
        ∗ (iprop(owns (c : Thread nD τ) arg2 fullShare x0 ∗ owns (c : Thread nD τ) arg3 fullShare x1 ∗ owns (c : Thread nD τ) arg4 fullShare x2
            ∗ owns (c : Thread nD τ) arg5 fullShare (k0_pay6 (k0_pay4 x0 x1 x2 a) (k0_pay5 x0 dg))
            ∗ owns (c : Thread nD τ) arg6 fullShare (k0_pay4 x0 x1 x2 a)
            ∗ owns (c : Thread nD τ) arg7 fullShare (k0_pay5 x0 dg)) -∗ K ⟨⟩))
      ⊢ wp frame (wpE (defs₀ (F := F)) Variants.none c none) E (cc0__xe_kernel i arg2 harg2 arg3 harg3 arg4 harg4 arg5 harg5 arg6 harg6 arg7 harg7) K := by
  simp only [cc0__xe_kernel_eq_skeleton]; unfold cc0__xe_kernel_skel
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, Hk⟩
  subst hf0; subst hf1; subst hf2; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    whole_rw
  isplitl [H6]
  · iexists _; isplitr
    swap; · iexact H6
    ipureintro
    whole_rw
  iexists _; isplitr
  swap; · iexact H7
  ipureintro
  whole_rw

end Cert.Kernel.Reg

end
-- ==== Proof.BitsRegion0.lean ====
/-
  The hyperedge pass as a pipeline: what its two accumulators hold after each grid point (a fold over the node
  tiles of the current batch element, restarted at each first tile), the invariant that carries them from one point
  to the next, the proof data and the body obligation at every point.
-/
import proofs.«126929_j11639361372554_1_alg».proof.Proof.Gen.Kernel.Launch
import proofs.«126929_j11639361372554_1_alg».proof.Proof.Gen.Kernel.Skeleton
import proofs.«126929_j11639361372554_1_alg».proof.Proof.Gen.Kernel.Points
import proofs.«126929_j11639361372554_1_alg».proof.Proof.BitsBody0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the incidence tile, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the node-feature tile, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the projection matrix (fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two accumulators, point by point -/

/-- One tile's step: the feature accumulator gains the tile's projected features contracted with its incidence rows,
    the degree accumulator the tile's column sums. -/
def stepAt (c : Dev nD) (t : Fin cfg0.N) (p : Vec F S64x2048 .f32 × Vec F S1x2048 .f32) : Vec F S64x2048 .f32 × Vec F S1x2048 .f32 :=
  (k0_pay4 (iblk0 V c 0 t) (iblk0 V c 1 t) (iblk0 V c 2 t) p.1, k0_pay5 (iblk0 V c 0 t) p.2)

/-- What the two scratch buffers hold after the body at position `n`: the step at `n` over zero at a first tile, over
    what position `n - 1` left otherwise. -/
def accAt0 (c : Dev nD) : (n : ℕ) → n < cfg0.N → Vec F S64x2048 .f32 × Vec F S1x2048 .f32
  | 0, hn => stepAt V c ⟨0, hn⟩ (k0_pay1, k0_pay2)
  | n + 1, hn =>
    if (n + 1) % 8 = 0 then stepAt V c ⟨n + 1, hn⟩ (k0_pay1, k0_pay2)
    else stepAt V c ⟨n + 1, hn⟩ (accAt0 c n (Nat.lt_of_succ_lt hn))

theorem accAt0_first (c : Dev nD) (t : Fin cfg0.N) (h0 : t.val % 8 = 0) :
    accAt0 V c t.val t.isLt = stepAt V c t (k0_pay1, k0_pay2) := by
  obtain ⟨n, hn⟩ := t
  cases n with
  | zero => rfl
  | succ n => exact if_pos h0

theorem accAt0_next (c : Dev nD) (t : Fin cfg0.N) (h0 : ¬t.val % 8 = 0) :
    accAt0 V c t.val t.isLt = stepAt V c t (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

abbrev scM0_0 : Memref sig .tc .vmem S64x2048 .f32 := Memref.whole cc0_scratch0
abbrev scM0_1 : Memref sig .tc .vmem S1x2048 .f32 := Memref.whole cc0_scratch1

/-- The core's scoped buffers this call neither stages nor uses as scratch (the other call's staging buffers), each
    whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the call is entered with beyond its windows — every scoped buffer it does not stage at some contents, and
    the generator register — with the two scratch buffers singled out. -/
theorem PhiA0_elim (c : Dev nD) :
    (Pipeline.ΦA spec0 c : sProp 𝕄)
      ⊢ iprop((∃ d, owns (c : Thread nD τ) scM0_0 fullShare d) ∗ (∃ d, owns (c : Thread nD τ) scM0_1 fullShare d) ∗ rest0 c ∗ (∃ r, prngReg c r)) := by
  unfold Pipeline.ΦA rest0; rw [scopedRest0_eq]; simp only [owns_whole]
  iintro ⟨⟨⟨%f0, H0⟩, ⟨%f1, H1⟩, Hr⟩, Hg⟩
  isplitl [H0]; · iexists f0; iexact H0
  isplitl [H1]; · iexists f1; iexact H1
  isplitl [Hr]; · iexact Hr
  iexact Hg

theorem PhiA0_intro (c : Dev nD) :
    iprop((∃ d, owns (c : Thread nD τ) scM0_0 fullShare d) ∗ (∃ d, owns (c : Thread nD τ) scM0_1 fullShare d) ∗ rest0 c ∗ (∃ r, prngReg c r))
      ⊢ (Pipeline.ΦA spec0 c : sProp 𝕄) := by
  unfold Pipeline.ΦA rest0; rw [scopedRest0_eq]; simp only [owns_whole]
  iintro ⟨⟨%f0, H0⟩, ⟨%f1, H1⟩, Hr, Hg⟩
  isplitr [Hg]
  · isplitl [H0]; · iexists f0; iexact H0
    isplitl [H1]; · iexists f1; iexact H1
    iexact Hr
  iexact Hg

/-- The invariant before position `n`: before the first point what the call is entered with; afterwards the two
    scratch buffers at what the point before left in them, beside the untouched rest and the generator register. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1 ∗ owns (c : Thread nD τ) scM0_1 fullShare (accAt0 V c n hn).2
      ∗ rest0 c ∗ (∃ r, prngReg c r))

theorem PhiS0_succ (c : Dev nD) (n : ℕ) (hn : n < cfg0.N) :
    PhiS0 V c (n + 1) hn = iprop(owns (c : Thread nD τ) scM0_0 fullShare (accAt0 V c n hn).1 ∗ owns (c : Thread nD τ) scM0_1 fullShare (accAt0 V c n hn).2
      ∗ rest0 c ∗ (∃ r, prngReg c r)) := rfl

theorem PhiS0_pos (c : Dev nD) (n : ℕ) (h : n ≤ cfg0.N) (hz : n ≠ 0) :
    PhiS0 V c n h = iprop(owns (c : Thread nD τ) scM0_0 fullShare (accAt0 V c (n - 1) (by omega)).1
      ∗ owns (c : Thread nD τ) scM0_1 fullShare (accAt0 V c (n - 1) (by omega)).2 ∗ rest0 c ∗ (∃ r, prngReg c r)) := by
  cases n with
  | zero => exact absurd rfl hz
  | succ n => rfl

/-- Whatever the position, the invariant holds both scratch buffers at SOME contents. -/
theorem PhiS0_any (c : Dev nD) (n : ℕ) (h : n ≤ cfg0.N) :
    PhiS0 V c n h ⊢ iprop((∃ d, owns (c : Thread nD τ) scM0_0 fullShare d) ∗ (∃ d, owns (c : Thread nD τ) scM0_1 fullShare d) ∗ rest0 c ∗ (∃ r, prngReg c r)) := by
  cases n with
  | zero => exact PhiA0_elim c
  | succ n =>
    rw [PhiS0_succ]
    iintro ⟨H0, H1, Hr, Hg⟩
    isplitl [H0]; · iexists _; iexact H0
    isplitl [H1]; · iexists _; iexact H1
    isplitl [Hr]; · iexact Hr
    iexact Hg

/-! ## The proof data -/

/-- The call's proof data on core `c`: the arrays as the call finds them; after the body each input's buffer still
    at its block, the output's at the quotient of the two accumulators (consulted at last tiles only); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accAt0 V c t.val t.isLt).1 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay6 (accAt0 V c t.val t.isLt).1 (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; which tile the point is decides the case; the
    invariant hands the body the two scratch buffers (at what the point before left, or at anything at a first tile)
    and takes them back at this point's accumulators; the output block is handed back as found except at a last
    tile, where it is the quotient. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  have hN : t.val < 32 := lt_of_lt_of_eq t.isLt (show cfg0.N = 32 from N_0)
  rw [Phi0_castSucc V c t]
  by_cases h0 : t.val % 8 = 0
  · have h1 : ¬t.val % 8 = 7 := by omega
    have hcA0 : cond0_0 (grid0.coords t) := (hcond0_0 t).mpr h0
    have hcA1 : ¬cond0_1 (grid0.coords t) := fun h => h1 ((hcond0_1 t).mp h)
    rw [Dat.leavesExact_idle (dat0 V c) 3 t (idleAt0_3 t hcA1) (noFlush0_3 t hcA1)]
    rw [accAt0_first V c t h0]
    unfold stepAt; dsimp only
    iintro ⟨HΦ, Ho, ⟨%d0, H0⟩, ⟨%d1, H1⟩, ⟨%d2, H2⟩, ⟨%d3, H3⟩⟩
    ihave HΦ' := (PhiS0_any V c t.val (Nat.le_of_lt t.isLt)) $$ HΦ
    icases HΦ' with ⟨HS0, HS1, Hrest, Hg⟩
    iapply (sound_kernel0_A c Set.univ (grid0.coords t) _ _ _ _ _ _ _ _ _ _ _ _ hcA0 hcA1 (iblk0 V c 0 t) (iblk0 V c 1 t) (iblk0 V c 2 t) ((dat0 V c).before 3 t d3) _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hcB0 : ¬cond0_0 (grid0.coords t) := fun h => h0 ((hcond0_0 t).mp h)
    rw [PhiS0_pos V c _ _ hz, accAt0_next V c t h0]
    unfold stepAt; dsimp only
    by_cases h1 : t.val % 8 = 7
    · have hcC1 : cond0_1 (grid0.coords t) := (hcond0_1 t).mpr h1
      rw [show (dat0 V c).leavesExact 3 t = owns (c : Thread nD τ) (st0_3 t) fullShare ((dat0 V c).after 3 t) from by
          unfold Dat.leavesExact; rw [liveAt0_3 t hcC1], after0_3, accAt0_next V c t h0]
      unfold stepAt; dsimp only
      iintro ⟨⟨HS0, HS1, Hrest, Hg⟩, Ho, ⟨%d0, H0⟩, ⟨%d1, H1⟩, ⟨%d2, H2⟩, ⟨%d3, H3⟩⟩
      iapply (sound_kernel0_C c Set.univ (grid0.coords t) _ _ _ _ _ _ _ _ _ _ _ _ hcB0 hcC1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      iexact H3
    · have hcB1 : ¬cond0_1 (grid0.coords t) := fun h => h1 ((hcond0_1 t).mp h)
      rw [Dat.leavesExact_idle (dat0 V c) 3 t (idleAt0_3 t hcB1) (noFlush0_3 t hcB1)]
      iintro ⟨⟨HS0, HS1, Hrest, Hg⟩, Ho, ⟨%d0, H0⟩, ⟨%d1, H1⟩, ⟨%d2, H2⟩, ⟨%d3, H3⟩⟩
      iapply (sound_kernel0_B c Set.univ (grid0.coords t) _ _ _ _ _ _ _ _ _ _ _ _ hcB0 hcB1 (iblk0 V c 0 t) (iblk0 V c 1 t) (iblk0 V c 2 t) ((dat0 V c).before 3 t d3) _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point, -/
theorem Phi0_in (c : Dev nD) : (Pipeline.ΦA spec0 c : sProp 𝕄) ⊢ (dat0 V c).Φ 0 := by
  rw [show (dat0 V c).Φ 0 = PhiS0 V c 0 (Nat.zero_le _) from rfl]
  exact Idealize.SL.BI.Entails.refl _

/-- and after the last point the invariant gives it back, the accumulators' contents forgotten. -/
theorem Phi0_out (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl]
  exact (PhiS0_any V c _ _).trans (PhiA0_intro c)

end Cert.Kernel.Reg

end
-- ==== Proof.BitsRegion1.lean ====
/-
  The second pallas_call (the node pass): for a tile of 1024 nodes of one batch element it contracts the tile's
  incidence rows with the hyperedge features of that batch element, divides each row by the row's degree (the lane
  sum of the incidence row) and adds the bias. Every grid point stores its output block whole, once, as one pure
  function of the three input blocks; nothing is kept between points. Stated at any entry contents `V` of the
  core's buffers and at any float instance.
-/
import proofs.«126929_j11639361372554_1_alg».proof.Proof.Gen.Kernel.Launch
import proofs.«126929_j11639361372554_1_alg».proof.Proof.Gen.Kernel.Skeleton
import proofs.«126929_j11639361372554_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index has not moved since the last fetch: the incidence tile (fetched at every point), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the batch element's hyperedge features (fetched when the batch index moves), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias row (fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body: three whole-block loads, one whole-block store -/

abbrev rH1 : Rect S1x1024x2048 := Rect.unit (s := S1x1024x2048) ![0, 0, 0] S1x1024x2048.size inb_S1x1024x2048_S1x1024x2048_0_0_0
abbrev rXe1 : Rect S1x64x2048 := Rect.unit (s := S1x64x2048) ![0, 0, 0] S1x64x2048.size inb_S1x64x2048_S1x64x2048_0_0_0
abbrev rB1 : Rect S1x64 := Rect.unit (s := S1x64) ![0, 0] S1x64.size inb_S1x64_S1x64_0_0
abbrev rO1 : Rect S1x1024x64 := Rect.unit (s := S1x1024x64) ![0, 0, 0] S1x1024x64.size inb_S1x1024x64_S1x1024x64_0_0_0

/-- What the body leaves in the output block: its one store, whose payload is the normalised product plus bias of the
    three loaded blocks. -/
def out1_3 (h : Vec F S1x1024x2048 .f32) (xe : Vec F S1x64x2048 .f32) (b : Vec F S1x64 .f32) : Vec F S1x1024x64 .f32 :=
  View.canon [⟨rO1, k1_pay1 (View.ld h rH1) (View.ld xe rXe1) (View.ld b rB1)⟩]

/-- The one store covers the whole output block. -/
theorem cover1_3 (p0 : Vec F S1x1024x64 .f32) (y : S1x1024x64.Idx) :
    ∃ pc ∈ ([⟨rO1, p0⟩] : List (View.Piece (Elt F) S1x1024x64 .f32)), y ∈ pc.1.set :=
  ⟨_, List.mem_singleton_self _, View.mem_set_unit_zero (by funext a; fin_cases a <;> rfl) inb_S1x1024x64_S1x1024x64_0_0_0 y⟩

set_option maxHeartbeats 1000000 in
/-- The body on whole staging buffers — the three inputs at known contents, the output at anything — runs to its
    continuation with the inputs untouched and the output block at `out1_3` of them. -/
theorem sound_kernel1 (c : Dev nD) (E : Set ℕ) (i : grid1.Coords)
    (arg2 : Memref sig .tc .vmem S1x1024x2048 .f32) (harg2 : arg2.IsWhole) (arg3 : Memref sig .tc .vmem S1x64x2048 .f32) (harg3 : arg3.IsWhole)
    (arg4 : Memref sig .tc .vmem S1x64 .f32) (harg4 : arg4.IsWhole) (arg5 : Memref sig .tc .vmem S1x1024x64 .f32) (harg5 : arg5.IsWhole)
    (x0 : Vec F S1x1024x2048 .f32) (x1 : Vec F S1x64x2048 .f32) (x2 : Vec F S1x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__xn_kernel i arg2 harg2 arg3 harg3 arg4 harg4 arg5 harg5) K := by
  simp only [cc1__xn_kernel_eq_skeleton]; unfold cc1__xn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data and the body obligation -/

/-- The call's proof data on core `c`: the arrays as the call finds them; after the body each input's buffer still
    at its block and the output's at `out1_3` of the input blocks; nothing kept between points beyond the buffers
    the call does not stage and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.BitsRun.lean ====
/-
  The whole program as three items — the hyperedge pass, the host reshape of the bias, the node pass — threaded
  through the conditional frame: what each pass leaves in the array it writes is named (the pipeline's write-backs
  folded over the grid), each pass's record is entered from and left at the buffer contents the conditional frame
  states between items, and the frame claim follows.
-/
import proofs.«126929_j11639361372554_1_alg».proof.Proof.Gen.Kernel.Launch
import proofs.«126929_j11639361372554_1_alg».proof.Proof.Gen.Kernel.Skeleton
import proofs.«126929_j11639361372554_1_alg».proof.Proof.Gen.Kernel.Points
import proofs.«126929_j11639361372554_1_alg».proof.Proof.Gen.Kernel.Regions
import proofs.«126929_j11639361372554_1_alg».proof.Proof.BitsRegion0
import proofs.«126929_j11639361372554_1_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- The first pass is entered at the launch contents. -/
abbrev Vin0 : (c : Dev nD) → (b : Ref sig .tc) → Buf (Elt F) ((c : Thread nD τ).loc b) := fun c b => Gen.V0 m c b

/-- At the first pass's exit: its arrays at what the pipeline leaves (the inputs as entered, the hyperedge features'
    write-backs folded), every other buffer as entered. -/
def W1 (c : Dev nD) : Valuation τ sig (Elt F) :=
  Pipeline.withArrays spec0 c (Gen.V0 m c) fun w => (dat0 (Vin0 m) c).arrAt w cfg0.N
theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w

/-- What the first pass leaves in the hyperedge-feature array. -/
abbrev o1 (c : Dev nD) : Buf (Elt F) ((c : Thread nD τ).loc main_v0) := W1 m c (Proc.devRef .tc main_v0)
/-- The buffers after the first pass, -/
abbrev U1 (c : Dev nD) : Valuation τ sig (Elt F) := Function.update (Gen.V0 m c) main_v0 (o1 m c)
/-- after the host reshape (which the second pass is entered at), -/
abbrev U2 (c : Dev nD) : Valuation τ sig (Elt F) := StableHlo.after hostOps1 (U1 m c)
abbrev Vin1 : (c : Dev nD) → (b : Ref sig .tc) → Buf (Elt F) ((c : Thread nD τ).loc b) := fun c b => U2 m c b

/-- and at the second pass's exit. -/
def W3 (c : Dev nD) : Valuation τ sig (Elt F) :=
  Pipeline.withArrays spec1 c (U2 m c) fun w => (dat1 (Vin1 m) c).arrAt w cfg1.N
theorem W3_arr (c : Dev nD) (w : Fin cfg1.W) :
    W3 m c (Proc.devRef .tc (Pipeline.arrRef spec1 w)) = (dat1 (Vin1 m) c).arrAt w cfg1.N := by
  unfold W3; exact Pipeline.withArrays_arr spec1 launch1.win.arr_inj c _ _ w
/-- What the second pass leaves in the result array. -/
abbrev o3 (c : Dev nD) : Buf (Elt F) ((c : Thread nD τ).loc main_v2) := W3 m c (Proc.devRef .tc main_v2)

/-- The contents the passes leave, as the conditional frame takes them. -/
def outsOf : Gen.Outs (F := F) := fun j r c => match j with
  | 1 => W1 m c (Proc.devRef .tc r)
  | _ => W3 m c (Proc.devRef .tc r)

theorem V1_eq (c : Dev nD) : Gen.V1 m (outsOf m) c = U1 m c := rfl
theorem V2_eq (c : Dev nD) : Gen.V2 m (outsOf m) c = U2 m c := rfl
theorem V3_eq (c : Dev nD) : Gen.V3 m (outsOf m) c = Function.update (U2 m c) main_v2 (o3 m c) := rfl

/-- After the first pass each of its arrays holds what the pipeline leaves, and every other buffer what it held. -/
theorem hF0 (c : Dev nD) : ∀ w : Fin cfg0.W, (dat0 (Vin0 m) c).arrAt w cfg0.N = (fun b : Ref sig .tc => Gen.V1 m (outsOf m) c b) (Pipeline.arrRef spec0 w)
  | ⟨0, _⟩ => (((dat0 (Vin0 m) c).arrAt_in 0 rfl _).trans (A_eq0 (Vin0 m) c 0)).trans (Gen.V1_of m (outsOf m) c main_arg1 (by decide)).symm
  | ⟨1, _⟩ => (((dat0 (Vin0 m) c).arrAt_in 1 rfl _).trans (A_eq0 (Vin0 m) c 1)).trans (Gen.V1_of m (outsOf m) c main_arg0 (by decide)).symm
  | ⟨2, _⟩ => (((dat0 (Vin0 m) c).arrAt_in 2 rfl _).trans (A_eq0 (Vin0 m) c 2)).trans (Gen.V1_of m (outsOf m) c main_arg2 (by decide)).symm
  | ⟨3, _⟩ => (W1_arr m c 3).symm.trans (Function.update_self (Proc.devRef .tc main_v0 : DevRef τ sig) (o1 m c) (Gen.V0 m c)).symm
theorem hrest0 (c : Dev nD) : ∀ b : Ref sig .tc, b ∉ Finset.univ.image (Pipeline.arrRef spec0) →
    (fun b : Ref sig .tc => Gen.V1 m (outsOf m) c b) b = Vin0 m c b := fun b hb =>
  Gen.V1_of m (outsOf m) c b (by
    intro h; rw [List.mem_singleton] at h; subst h
    exact hb (Finset.mem_image.mpr ⟨3, Finset.mem_univ _, rfl⟩))

/-- The same after the second pass. -/
theorem hF1 (c : Dev nD) : ∀ w : Fin cfg1.W, (dat1 (Vin1 m) c).arrAt w cfg1.N = (fun b : Ref sig .tc => Gen.V3 m (outsOf m) c b) (Pipeline.arrRef spec1 w)
  | ⟨0, _⟩ => (((dat1 (Vin1 m) c).arrAt_in 0 rfl _).trans (A_eq1 (Vin1 m) c 0)).trans (Gen.V3_of m (outsOf m) c main_arg1 (by decide)).symm
  | ⟨1, _⟩ => (((dat1 (Vin1 m) c).arrAt_in 1 rfl _).trans (A_eq1 (Vin1 m) c 1)).trans (Gen.V3_of m (outsOf m) c main_v0 (by decide)).symm
  | ⟨2, _⟩ => (((dat1 (Vin1 m) c).arrAt_in 2 rfl _).trans (A_eq1 (Vin1 m) c 2)).trans (Gen.V3_of m (outsOf m) c main_v1 (by decide)).symm
  | ⟨3, _⟩ => (W3_arr m c 3).symm.trans (Function.update_self (Proc.devRef .tc main_v2 : DevRef τ sig) (o3 m c) (U2 m c)).symm
theorem hrest1 (c : Dev nD) : ∀ b : Ref sig .tc, b ∉ Finset.univ.image (Pipeline.arrRef spec1) →
    (fun b : Ref sig .tc => Gen.V3 m (outsOf m) c b) b = Vin1 m c b := fun b hb =>
  Gen.V3_of m (outsOf m) c b (by
    intro h; rw [List.mem_singleton] at h; subst h
    exact hb (Finset.mem_image.mpr ⟨3, Finset.mem_univ _, rfl⟩))

/-! ## The proof data family and what rides beside the buffers -/

/-- Both passes' proof data, each at its entry contents. -/
def pdats : (p : Fin 2) → (c : Dev nD) → Dat τ (Elt F) Unit ℕ (UR sig nD τ) ℕ (Pipeline.pin (pcfgs (F := F)) Gen.adm p) c
  | ⟨0, _⟩ => fun c => dat0 (Vin0 m) c
  | ⟨1, _⟩ => fun c => dat1 (Vin1 m) c

/-- No core owes another anything: no level is assigned. -/
abbrev L0 : GSem nD τ sig → Finset Unit := fun _ => ∅
abbrev lv0 : GSem nD τ sig → Unit → ℕ := fun _ _ => 0
/-- Beside the buffers, through every item: the generator register at some state, and the core owing nothing. -/
abbrev Rr (c : Dev nD) : sProp 𝕄 := iprop((∃ r, prngReg c r) ∗ ∃ W, owes (c : Thread nD τ) (0 : CellTallies nD τ sig Unit) W)
abbrev Ee : Fin 3 → Dev nD → sProp 𝕄 := fun _ c => Rr c

/-! ## The two passes as records -/

set_option backward.isDefEq.respectTransparency.types false in
/-- The hyperedge pass: entered from every unscoped buffer at the launch contents, left with the hyperedge-feature
    array at what the pass wrote. Its arrays are split out of the unscoped buffers and put back at the exit contents;
    the scoped rest and the generator register enter the invariant and come back; nothing owed. -/
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L0 lv0 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outsOf m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Phi0_in (Vin0 m) c)
    unfold Pipeline.ΦA
    iintro ⟨Hp, -, Hr⟩
    isplitl [Hr]; · iexact Hr
    iexact Hp
  hout c := by
    rw [Pipeline.ownSems0_none]
    refine Idealize.SL.BI.BIBase.Entails.trans (Phi0_out (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b : Ref sig .tc => Gen.V1 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node pass: entered from the buffers after the host reshape, left with the result array at what the pass wrote. -/
def reg1 : Pipeline.RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L0 lv0 1 fun _ _ => rfl
  pre c := iprop(StableHlo.held (c : Thread nD τ) (Pipeline.ucRefs τ sig) (U2 m c) ∗ Rr c)
  post c := iprop(StableHlo.held (c : Thread nD τ) (Pipeline.ucRefs τ sig) (Gen.V3 m (outsOf m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b : Ref sig .tc => Gen.V3 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch deals -/

abbrev u0 : UR sig nD τ := initOf (Pipeline.cells cfgs cellOf_inj) (Pipeline.launchToks cfgs cellOf_inj)

theorem hu0 : (ownU (u0 : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L0 lv0)
    ⊢ (|={Set.univ}=> bigSep Finset.univ (Ee (F := F) 0) : sProp 𝕄) := by
  refine Pipeline.initEach L0 lv0 fun c => ?_
  iintro ⟨⟨-, HO, -, Hp, -⟩, -⟩
  imodintro
  isplitl [Hp]; · iexists _; iexact Hp
  iexists ∅; iexact HO

theorem hE2 (c : Dev nD) : Ee (F := F) 2 c ⊢ (iprop(∃ W, owes (c : Thread nD τ) (0 : CellTallies nD τ sig Unit) W) : sProp 𝕄) := by
  iintro ⟨-, HO⟩; iexact HO

/-! ## The frame -/

/-- Every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () Variants.none L0 lv0 (fun _ _ => rfl) ρ (outsOf m) (pdats m) 0 (fun _ => iprop(emp)) u0 hu0
    Ee (hE0 ρ) hE2 (reg0 m) (fun _ => .rfl) (fun _ => .rfl) (reg1 m) (fun c => by rw [V2_eq]; exact .rfl) (fun _ => .rfl)

end Cert.Kernel.Reg

end
-- ==== Proof.IdealBody0.lean ====
/-
  The first pallas_call (the hyperedge pass): over the eight node tiles of one batch element it accumulates, in two
  scratch buffers kept across grid points, the projected features summed over the nodes of each hyperedge
  (a 64 × 2048 block) and the hyperedges' degrees (a 1 × 2048 row); the first tile of a batch element starts both
  from zero, and the last tile stores their quotient as the batch element's output block. The output block is
  written at the last tile only; at the other tiles its buffer is handed back as found. Stated at any entry
  contents `V` of the core's buffers and at any float instance.
-/
import proofs.«126929_j11639361372554_1_alg».proof.Proof.Gen.KernelIdeal.Launch
import proofs.«126929_j11639361372554_1_alg».proof.Proof.Gen.KernelIdeal.Skeleton
import proofs.«126929_j11639361372554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which tile a grid point is: the body's two branch conditions, decided over the grid -/

/-- The first node tile of a batch element (the accumulators are reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The last node tile of a batch element (the quotient is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The three inputs are used at every point; the output block is untouched, and not written back, except at a last tile. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## Whole-buffer accesses -/

theorem hz2 : (![0, 0] : Fin 2 → Nat) = fun _ => 0 := by funext a; fin_cases a <;> rfl
theorem hz3 : (![0, 0, 0] : Fin 3 → Nat) = fun _ => 0 := by funext a; fin_cases a <;> rfl

/-- A buffer whose LAST store filled it whole reads back that store's payload, whatever was stored before. -/
theorem read_writes_head {S : Shape} {e : EltTy} {sg : RefSig} {κ : Kind} {sp : Space} (v : View sg κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h inb w L]

/-- Closes "this buffer, read back after the run's stores, holds this payload": the last store filled the buffer
    whole, and every load of the run was of a whole buffer, either untouched or just stored. -/
local macro "whole_rw" : tactic => `(tactic| (
  try sl_unfold_words
  first
    | rw [read_writes_head (S := S64x2048) _ _ hz2]
    | rw [read_writes_head (S := S1x2048) _ _ hz2]
    | rw [read_writes_head (S := S1x64x2048) _ _ hz3]
  simp only [View.readAt_eq_ld, View.ld_unit_zero (S := S1x1024x2048) hz3, View.ld_unit_zero (S := S1x1024x64) hz3,
    View.ld_unit_zero (S := S64x64) hz2, View.ld_unit_zero (S := S64x2048) hz2, View.ld_unit_zero (S := S1x2048) hz2,
    View.readCov_unit_zero (S := S64x2048) _ hz2, View.readCov_unit_zero (S := S1x2048) _ hz2]))

/-! ## The body, tile by tile -/

set_option maxHeartbeats 2000000 in
/-- A FIRST tile (not also a last one): both accumulators are zeroed, then the tile's contribution is added; the
    output block is handed back as found. -/
theorem sound_kernel0_A (c : Dev nD) (E : Set ℕ) (i : grid0.Coords)
    (arg2 : Memref sig .tc .vmem S1x1024x2048 .f32) (harg2 : arg2.IsWhole) (arg3 : Memref sig .tc .vmem S1x1024x64 .f32) (harg3 : arg3.IsWhole)
    (arg4 : Memref sig .tc .vmem S64x64 .f32) (harg4 : arg4.IsWhole) (arg5 : Memref sig .tc .vmem S1x64x2048 .f32) (harg5 : arg5.IsWhole)
    (arg6 : Memref sig .tc .vmem S64x2048 .f32) (harg6 : arg6.IsWhole) (arg7 : Memref sig .tc .vmem S1x2048 .f32) (harg7 : arg7.IsWhole)
    (hc0 : cond0_0 i) (hc1 : ¬cond0_1 i)
    (x0 : Vec F S1x1024x2048 .f32) (x1 : Vec F S1x1024x64 .f32) (x2 : Vec F S64x64 .f32) (xi3 : Vec F S1x64x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ a, owns (c : Thread nD τ) arg6 fullShare a) ∗ (∃ dg, owns (c : Thread nD τ) arg7 fullShare dg)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay4 x0 x1 x2 k0_pay1)
            ∗ owns (c : Thread nD τ) arg7 fullShare (k0_pay5 x0 k0_pay2)) -∗ K ⟨⟩))
      ⊢ wp frame (wpE (defs₀ (F := F)) Variants.none c none) E (cc0__xe_kernel i arg2 harg2 arg3 harg3 arg4 harg4 arg5 harg5 arg6 harg6 arg7 harg7) K := by
  simp only [cc0__xe_kernel_eq_skeleton]; unfold cc0__xe_kernel_skel
  unfold owns
  iintro ⟨⟨%f0, %hf0, H0⟩, ⟨%f1, %hf1, H1⟩, ⟨%f2, %hf2, H2⟩, ⟨%f3, %hf3, H3⟩, ⟨%a, %f6, -, H6⟩, ⟨%dg, %f7, -, H7⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    whole_rw
  iexists _; isplitr
  swap; · iexact H7
  ipureintro
  whole_rw

set_option maxHeartbeats 2000000 in
/-- A MIDDLE tile: the tile's contribution is added to both accumulators; the output block is handed back as found. -/
theorem sound_kernel0_B (c : Dev nD) (E : Set ℕ) (i : grid0.Coords)
    (arg2 : Memref sig .tc .vmem S1x1024x2048 .f32) (harg2 : arg2.IsWhole) (arg3 : Memref sig .tc .vmem S1x1024x64 .f32) (harg3 : arg3.IsWhole)
    (arg4 : Memref sig .tc .vmem S64x64 .f32) (harg4 : arg4.IsWhole) (arg5 : Memref sig .tc .vmem S1x64x2048 .f32) (harg5 : arg5.IsWhole)
    (arg6 : Memref sig .tc .vmem S64x2048 .f32) (harg6 : arg6.IsWhole) (arg7 : Memref sig .tc .vmem S1x2048 .f32) (harg7 : arg7.IsWhole)
    (hc0 : ¬cond0_0 i) (hc1 : ¬cond0_1 i)
    (x0 : Vec F S1x1024x2048 .f32) (x1 : Vec F S1x1024x64 .f32) (x2 : Vec F S64x64 .f32) (xi3 : Vec F S1x64x2048 .f32)
    (a : Vec F S64x2048 .f32) (dg : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare a ∗ owns (c : Thread nD τ) arg7 fullShare dg
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay4 x0 x1 x2 a)
            ∗ owns (c : Thread nD τ) arg7 fullShare (k0_pay5 x0 dg)) -∗ K ⟨⟩))
      ⊢ wp frame (wpE (defs₀ (F := F)) Variants.none c none) E (cc0__xe_kernel i arg2 harg2 arg3 harg3 arg4 harg4 arg5 harg5 arg6 harg6 arg7 harg7) K := by
  simp only [cc0__xe_kernel_eq_skeleton]; unfold cc0__xe_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    whole_rw
  iexists _; isplitr
  swap; · iexact H7
  ipureintro
  whole_rw

set_option maxHeartbeats 2000000 in
/-- A LAST tile (not also a first one): the tile's contribution is added to both accumulators, and the output
    block is stored: the feature accumulator divided, column by column, by the degree accumulator. -/
theorem sound_kernel0_C (c : Dev nD) (E : Set ℕ) (i : grid0.Coords)
    (arg2 : Memref sig .tc .vmem S1x1024x2048 .f32) (harg2 : arg2.IsWhole) (arg3 : Memref sig .tc .vmem S1x1024x64 .f32) (harg3 : arg3.IsWhole)
    (arg4 : Memref sig .tc .vmem S64x64 .f32) (harg4 : arg4.IsWhole) (arg5 : Memref sig .tc .vmem S1x64x2048 .f32) (harg5 : arg5.IsWhole)
    (arg6 : Memref sig .tc .vmem S64x2048 .f32) (harg6 : arg6.IsWhole) (arg7 : Memref sig .tc .vmem S1x2048 .f32) (harg7 : arg7.IsWhole)
    (hc0 : ¬cond0_0 i) (hc1 : cond0_1 i)
    (x0 : Vec F S1x1024x2048 .f32) (x1 : Vec F S1x1024x64 .f32) (x2 : Vec F S64x64 .f32)
    (a : Vec F S64x2048 .f32) (dg : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a ∗ owns (c : Thread nD τ) arg7 fullShare dg
        ∗ (iprop(owns (c : Thread nD τ) arg2 fullShare x0 ∗ owns (c : Thread nD τ) arg3 fullShare x1 ∗ owns (c : Thread nD τ) arg4 fullShare x2
            ∗ owns (c : Thread nD τ) arg5 fullShare (k0_pay6 (k0_pay4 x0 x1 x2 a) (k0_pay5 x0 dg))
            ∗ owns (c : Thread nD τ) arg6 fullShare (k0_pay4 x0 x1 x2 a)
            ∗ owns (c : Thread nD τ) arg7 fullShare (k0_pay5 x0 dg)) -∗ K ⟨⟩))
      ⊢ wp frame (wpE (defs₀ (F := F)) Variants.none c none) E (cc0__xe_kernel i arg2 harg2 arg3 harg3 arg4 harg4 arg5 harg5 arg6 harg6 arg7 harg7) K := by
  simp only [cc0__xe_kernel_eq_skeleton]; unfold cc0__xe_kernel_skel
  unfold owns
  iintro ⟨⟨%f0, %hf0, H0⟩, ⟨%f1, %hf1, H1⟩, ⟨%f2, %hf2, H2⟩, ⟨%d3, %f3, -, H3⟩, ⟨%f6, %hf6, H6⟩, ⟨%f7, %hf7, H7⟩, Hk⟩
  subst hf0; subst hf1; subst hf2; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    whole_rw
  isplitl [H6]
  · iexists _; isplitr
    swap; · iexact H6
    ipureintro
    whole_rw
  iexists _; isplitr
  swap; · iexact H7
  ipureintro
  whole_rw

end Cert.KernelIdeal.Reg

end
-- ==== Proof.IdealRegion0.lean ====
/-
  The hyperedge pass as a pipeline: what its two accumulators hold after each grid point (a fold over the node
  tiles of the current batch element, restarted at each first tile), the invariant that carries them from one point
  to the next, the proof data and the body obligation at every point.
-/
import proofs.«126929_j11639361372554_1_alg».proof.Proof.Gen.KernelIdeal.Launch
import proofs.«126929_j11639361372554_1_alg».proof.Proof.Gen.KernelIdeal.Skeleton
import proofs.«126929_j11639361372554_1_alg».proof.Proof.Gen.KernelIdeal.Points
import proofs.«126929_j11639361372554_1_alg».proof.Proof.IdealBody0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the incidence tile, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- the node-feature tile, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- and the projection matrix (fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two accumulators, point by point -/

/-- One tile's step: the feature accumulator gains the tile's projected features contracted with its incidence rows,
    the degree accumulator the tile's column sums. -/
def stepAt (c : Dev nD) (t : Fin cfg0.N) (p : Vec F S64x2048 .f32 × Vec F S1x2048 .f32) : Vec F S64x2048 .f32 × Vec F S1x2048 .f32 :=
  (k0_pay4 (iblk0 V c 0 t) (iblk0 V c 1 t) (iblk0 V c 2 t) p.1, k0_pay5 (iblk0 V c 0 t) p.2)

/-- What the two scratch buffers hold after the body at position `n`: the step at `n` over zero at a first tile, over
    what position `n - 1` left otherwise. -/
def accAt0 (c : Dev nD) : (n : ℕ) → n < cfg0.N → Vec F S64x2048 .f32 × Vec F S1x2048 .f32
  | 0, hn => stepAt V c ⟨0, hn⟩ (k0_pay1, k0_pay2)
  | n + 1, hn =>
    if (n + 1) % 8 = 0 then stepAt V c ⟨n + 1, hn⟩ (k0_pay1, k0_pay2)
    else stepAt V c ⟨n + 1, hn⟩ (accAt0 c n (Nat.lt_of_succ_lt hn))

theorem accAt0_first (c : Dev nD) (t : Fin cfg0.N) (h0 : t.val % 8 = 0) :
    accAt0 V c t.val t.isLt = stepAt V c t (k0_pay1, k0_pay2) := by
  obtain ⟨n, hn⟩ := t
  cases n with
  | zero => rfl
  | succ n => exact if_pos h0

theorem accAt0_next (c : Dev nD) (t : Fin cfg0.N) (h0 : ¬t.val % 8 = 0) :
    accAt0 V c t.val t.isLt = stepAt V c t (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

abbrev scM0_0 : Memref sig .tc .vmem S64x2048 .f32 := Memref.whole cc0_scratch0
abbrev scM0_1 : Memref sig .tc .vmem S1x2048 .f32 := Memref.whole cc0_scratch1

/-- The core's scoped buffers this call neither stages nor uses as scratch (the other call's staging buffers), each
    whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the call is entered with beyond its windows — every scoped buffer it does not stage at some contents, and
    the generator register — with the two scratch buffers singled out. -/
theorem PhiA0_elim (c : Dev nD) :
    (Pipeline.ΦA spec0 c : sProp 𝕄)
      ⊢ iprop((∃ d, owns (c : Thread nD τ) scM0_0 fullShare d) ∗ (∃ d, owns (c : Thread nD τ) scM0_1 fullShare d) ∗ rest0 c ∗ (∃ r, prngReg c r)) := by
  unfold Pipeline.ΦA rest0; rw [scopedRest0_eq]; simp only [owns_whole]
  iintro ⟨⟨⟨%f0, H0⟩, ⟨%f1, H1⟩, Hr⟩, Hg⟩
  isplitl [H0]; · iexists f0; iexact H0
  isplitl [H1]; · iexists f1; iexact H1
  isplitl [Hr]; · iexact Hr
  iexact Hg

theorem PhiA0_intro (c : Dev nD) :
    iprop((∃ d, owns (c : Thread nD τ) scM0_0 fullShare d) ∗ (∃ d, owns (c : Thread nD τ) scM0_1 fullShare d) ∗ rest0 c ∗ (∃ r, prngReg c r))
      ⊢ (Pipeline.ΦA spec0 c : sProp 𝕄) := by
  unfold Pipeline.ΦA rest0; rw [scopedRest0_eq]; simp only [owns_whole]
  iintro ⟨⟨%f0, H0⟩, ⟨%f1, H1⟩, Hr, Hg⟩
  isplitr [Hg]
  · isplitl [H0]; · iexists f0; iexact H0
    isplitl [H1]; · iexists f1; iexact H1
    iexact Hr
  iexact Hg

/-- The invariant before position `n`: before the first point what the call is entered with; afterwards the two
    scratch buffers at what the point before left in them, beside the untouched rest and the generator register. -/
def PhiS0 (c : Dev nD) : (n : ℕ) → n ≤ cfg0.N → sProp 𝕄
  | 0, _ => Pipeline.ΦA spec0 c
  | n + 1, hn => iprop(owns (c : Thread nD τ) scM0_0 fullShare (accAt0 V c n hn).1 ∗ owns (c : Thread nD τ) scM0_1 fullShare (accAt0 V c n hn).2
      ∗ rest0 c ∗ (∃ r, prngReg c r))

theorem PhiS0_succ (c : Dev nD) (n : ℕ) (hn : n < cfg0.N) :
    PhiS0 V c (n + 1) hn = iprop(owns (c : Thread nD τ) scM0_0 fullShare (accAt0 V c n hn).1 ∗ owns (c : Thread nD τ) scM0_1 fullShare (accAt0 V c n hn).2
      ∗ rest0 c ∗ (∃ r, prngReg c r)) := rfl

theorem PhiS0_pos (c : Dev nD) (n : ℕ) (h : n ≤ cfg0.N) (hz : n ≠ 0) :
    PhiS0 V c n h = iprop(owns (c : Thread nD τ) scM0_0 fullShare (accAt0 V c (n - 1) (by omega)).1
      ∗ owns (c : Thread nD τ) scM0_1 fullShare (accAt0 V c (n - 1) (by omega)).2 ∗ rest0 c ∗ (∃ r, prngReg c r)) := by
  cases n with
  | zero => exact absurd rfl hz
  | succ n => rfl

/-- Whatever the position, the invariant holds both scratch buffers at SOME contents. -/
theorem PhiS0_any (c : Dev nD) (n : ℕ) (h : n ≤ cfg0.N) :
    PhiS0 V c n h ⊢ iprop((∃ d, owns (c : Thread nD τ) scM0_0 fullShare d) ∗ (∃ d, owns (c : Thread nD τ) scM0_1 fullShare d) ∗ rest0 c ∗ (∃ r, prngReg c r)) := by
  cases n with
  | zero => exact PhiA0_elim c
  | succ n =>
    rw [PhiS0_succ]
    iintro ⟨H0, H1, Hr, Hg⟩
    isplitl [H0]; · iexists _; iexact H0
    isplitl [H1]; · iexists _; iexact H1
    isplitl [Hr]; · iexact Hr
    iexact Hg

/-! ## The proof data -/

/-- The call's proof data on core `c`: the arrays as the call finds them; after the body each input's buffer still
    at its block, the output's at the quotient of the two accumulators (consulted at last tiles only); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accAt0 V c t.val t.isLt).1 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay6 (accAt0 V c t.val t.isLt).1 (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; which tile the point is decides the case; the
    invariant hands the body the two scratch buffers (at what the point before left, or at anything at a first tile)
    and takes them back at this point's accumulators; the output block is handed back as found except at a last
    tile, where it is the quotient. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  have hN : t.val < 32 := lt_of_lt_of_eq t.isLt (show cfg0.N = 32 from N_0)
  rw [Phi0_castSucc V c t]
  by_cases h0 : t.val % 8 = 0
  · have h1 : ¬t.val % 8 = 7 := by omega
    have hcA0 : cond0_0 (grid0.coords t) := (hcond0_0 t).mpr h0
    have hcA1 : ¬cond0_1 (grid0.coords t) := fun h => h1 ((hcond0_1 t).mp h)
    rw [Dat.leavesExact_idle (dat0 V c) 3 t (idleAt0_3 t hcA1) (noFlush0_3 t hcA1)]
    rw [accAt0_first V c t h0]
    unfold stepAt; dsimp only
    iintro ⟨HΦ, Ho, ⟨%d0, H0⟩, ⟨%d1, H1⟩, ⟨%d2, H2⟩, ⟨%d3, H3⟩⟩
    ihave HΦ' := (PhiS0_any V c t.val (Nat.le_of_lt t.isLt)) $$ HΦ
    icases HΦ' with ⟨HS0, HS1, Hrest, Hg⟩
    iapply (sound_kernel0_A c Set.univ (grid0.coords t) _ _ _ _ _ _ _ _ _ _ _ _ hcA0 hcA1 (iblk0 V c 0 t) (iblk0 V c 1 t) (iblk0 V c 2 t) ((dat0 V c).before 3 t d3) _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hcB0 : ¬cond0_0 (grid0.coords t) := fun h => h0 ((hcond0_0 t).mp h)
    rw [PhiS0_pos V c _ _ hz, accAt0_next V c t h0]
    unfold stepAt; dsimp only
    by_cases h1 : t.val % 8 = 7
    · have hcC1 : cond0_1 (grid0.coords t) := (hcond0_1 t).mpr h1
      rw [show (dat0 V c).leavesExact 3 t = owns (c : Thread nD τ) (st0_3 t) fullShare ((dat0 V c).after 3 t) from by
          unfold Dat.leavesExact; rw [liveAt0_3 t hcC1], after0_3, accAt0_next V c t h0]
      unfold stepAt; dsimp only
      iintro ⟨⟨HS0, HS1, Hrest, Hg⟩, Ho, ⟨%d0, H0⟩, ⟨%d1, H1⟩, ⟨%d2, H2⟩, ⟨%d3, H3⟩⟩
      iapply (sound_kernel0_C c Set.univ (grid0.coords t) _ _ _ _ _ _ _ _ _ _ _ _ hcB0 hcC1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      iexact H3
    · have hcB1 : ¬cond0_1 (grid0.coords t) := fun h => h1 ((hcond0_1 t).mp h)
      rw [Dat.leavesExact_idle (dat0 V c) 3 t (idleAt0_3 t hcB1) (noFlush0_3 t hcB1)]
      iintro ⟨⟨HS0, HS1, Hrest, Hg⟩, Ho, ⟨%d0, H0⟩, ⟨%d1, H1⟩, ⟨%d2, H2⟩, ⟨%d3, H3⟩⟩
      iapply (sound_kernel0_B c Set.univ (grid0.coords t) _ _ _ _ _ _ _ _ _ _ _ _ hcB0 hcB1 (iblk0 V c 0 t) (iblk0 V c 1 t) (iblk0 V c 2 t) ((dat0 V c).before 3 t d3) _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point, -/
theorem Phi0_in (c : Dev nD) : (Pipeline.ΦA spec0 c : sProp 𝕄) ⊢ (dat0 V c).Φ 0 := by
  rw [show (dat0 V c).Φ 0 = PhiS0 V c 0 (Nat.zero_le _) from rfl]
  exact Idealize.SL.BI.Entails.refl _

/-- and after the last point the invariant gives it back, the accumulators' contents forgotten. -/
theorem Phi0_out (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl]
  exact (PhiS0_any V c _ _).trans (PhiA0_intro c)

end Cert.KernelIdeal.Reg

end
-- ==== Proof.IdealRegion1.lean ====
/-
  The second pallas_call (the node pass): for a tile of 1024 nodes of one batch element it contracts the tile's
  incidence rows with the hyperedge features of that batch element, divides each row by the row's degree (the lane
  sum of the incidence row) and adds the bias. Every grid point stores its output block whole, once, as one pure
  function of the three input blocks; nothing is kept between points. Stated at any entry contents `V` of the
  core's buffers and at any float instance.
-/
import proofs.«126929_j11639361372554_1_alg».proof.Proof.Gen.KernelIdeal.Launch
import proofs.«126929_j11639361372554_1_alg».proof.Proof.Gen.KernelIdeal.Skeleton
import proofs.«126929_j11639361372554_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index has not moved since the last fetch: the incidence tile (fetched at every point), -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the batch element's hyperedge features (fetched when the batch index moves), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- and the bias row (fetched once). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body: three whole-block loads, one whole-block store -/

abbrev rH1 : Rect S1x1024x2048 := Rect.unit (s := S1x1024x2048) ![0, 0, 0] S1x1024x2048.size inb_S1x1024x2048_S1x1024x2048_0_0_0
abbrev rXe1 : Rect S1x64x2048 := Rect.unit (s := S1x64x2048) ![0, 0, 0] S1x64x2048.size inb_S1x64x2048_S1x64x2048_0_0_0
abbrev rB1 : Rect S1x64 := Rect.unit (s := S1x64) ![0, 0] S1x64.size inb_S1x64_S1x64_0_0
abbrev rO1 : Rect S1x1024x64 := Rect.unit (s := S1x1024x64) ![0, 0, 0] S1x1024x64.size inb_S1x1024x64_S1x1024x64_0_0_0

/-- What the body leaves in the output block: its one store, whose payload is the normalised product plus bias of the
    three loaded blocks. -/
def out1_3 (h : Vec F S1x1024x2048 .f32) (xe : Vec F S1x64x2048 .f32) (b : Vec F S1x64 .f32) : Vec F S1x1024x64 .f32 :=
  View.canon [⟨rO1, k1_pay1 (View.ld h rH1) (View.ld xe rXe1) (View.ld b rB1)⟩]

/-- The one store covers the whole output block. -/
theorem cover1_3 (p0 : Vec F S1x1024x64 .f32) (y : S1x1024x64.Idx) :
    ∃ pc ∈ ([⟨rO1, p0⟩] : List (View.Piece (Elt F) S1x1024x64 .f32)), y ∈ pc.1.set :=
  ⟨_, List.mem_singleton_self _, View.mem_set_unit_zero (by funext a; fin_cases a <;> rfl) inb_S1x1024x64_S1x1024x64_0_0_0 y⟩

set_option maxHeartbeats 1000000 in
/-- The body on whole staging buffers — the three inputs at known contents, the output at anything — runs to its
    continuation with the inputs untouched and the output block at `out1_3` of them. -/
theorem sound_kernel1 (c : Dev nD) (E : Set ℕ) (i : grid1.Coords)
    (arg2 : Memref sig .tc .vmem S1x1024x2048 .f32) (harg2 : arg2.IsWhole) (arg3 : Memref sig .tc .vmem S1x64x2048 .f32) (harg3 : arg3.IsWhole)
    (arg4 : Memref sig .tc .vmem S1x64 .f32) (harg4 : arg4.IsWhole) (arg5 : Memref sig .tc .vmem S1x1024x64 .f32) (harg5 : arg5.IsWhole)
    (x0 : Vec F S1x1024x2048 .f32) (x1 : Vec F S1x64x2048 .f32) (x2 : Vec F S1x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__xn_kernel i arg2 harg2 arg3 harg3 arg4 harg4 arg5 harg5) K := by
  simp only [cc1__xn_kernel_eq_skeleton]; unfold cc1__xn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data and the body obligation -/

/-- The call's proof data on core `c`: the arrays as the call finds them; after the body each input's buffer still
    at its block and the output's at `out1_3` of the input blocks; nothing kept between points beyond the buffers
    the call does not stage and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.IdealRun.lean ====
/-
  The whole program as three items — the hyperedge pass, the host reshape of the bias, the node pass — threaded
  through the conditional frame: what each pass leaves in the array it writes is named (the pipeline's write-backs
  folded over the grid), each pass's record is entered from and left at the buffer contents the conditional frame
  states between items, and the frame claim follows.
-/
import proofs.«126929_j11639361372554_1_alg».proof.Proof.Gen.KernelIdeal.Launch
import proofs.«126929_j11639361372554_1_alg».proof.Proof.Gen.KernelIdeal.Skeleton
import proofs.«126929_j11639361372554_1_alg».proof.Proof.Gen.KernelIdeal.Points
import proofs.«126929_j11639361372554_1_alg».proof.Proof.Gen.KernelIdeal.Regions
import proofs.«126929_j11639361372554_1_alg».proof.Proof.IdealRegion0
import proofs.«126929_j11639361372554_1_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- The first pass is entered at the launch contents. -/
abbrev Vin0 : (c : Dev nD) → (b : Ref sig .tc) → Buf (Elt F) ((c : Thread nD τ).loc b) := fun c b => Gen.V0 m c b

/-- At the first pass's exit: its arrays at what the pipeline leaves (the inputs as entered, the hyperedge features'
    write-backs folded), every other buffer as entered. -/
def W1 (c : Dev nD) : Valuation τ sig (Elt F) :=
  Pipeline.withArrays spec0 c (Gen.V0 m c) fun w => (dat0 (Vin0 m) c).arrAt w cfg0.N
theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w

/-- What the first pass leaves in the hyperedge-feature array. -/
abbrev o1 (c : Dev nD) : Buf (Elt F) ((c : Thread nD τ).loc main_v0) := W1 m c (Proc.devRef .tc main_v0)
/-- The buffers after the first pass, -/
abbrev U1 (c : Dev nD) : Valuation τ sig (Elt F) := Function.update (Gen.V0 m c) main_v0 (o1 m c)
/-- after the host reshape (which the second pass is entered at), -/
abbrev U2 (c : Dev nD) : Valuation τ sig (Elt F) := StableHlo.after hostOps1 (U1 m c)
abbrev Vin1 : (c : Dev nD) → (b : Ref sig .tc) → Buf (Elt F) ((c : Thread nD τ).loc b) := fun c b => U2 m c b

/-- and at the second pass's exit. -/
def W3 (c : Dev nD) : Valuation τ sig (Elt F) :=
  Pipeline.withArrays spec1 c (U2 m c) fun w => (dat1 (Vin1 m) c).arrAt w cfg1.N
theorem W3_arr (c : Dev nD) (w : Fin cfg1.W) :
    W3 m c (Proc.devRef .tc (Pipeline.arrRef spec1 w)) = (dat1 (Vin1 m) c).arrAt w cfg1.N := by
  unfold W3; exact Pipeline.withArrays_arr spec1 launch1.win.arr_inj c _ _ w
/-- What the second pass leaves in the result array. -/
abbrev o3 (c : Dev nD) : Buf (Elt F) ((c : Thread nD τ).loc main_v2) := W3 m c (Proc.devRef .tc main_v2)

/-- The contents the passes leave, as the conditional frame takes them. -/
def outsOf : Gen.Outs (F := F) := fun j r c => match j with
  | 1 => W1 m c (Proc.devRef .tc r)
  | _ => W3 m c (Proc.devRef .tc r)

theorem V1_eq (c : Dev nD) : Gen.V1 m (outsOf m) c = U1 m c := rfl
theorem V2_eq (c : Dev nD) : Gen.V2 m (outsOf m) c = U2 m c := rfl
theorem V3_eq (c : Dev nD) : Gen.V3 m (outsOf m) c = Function.update (U2 m c) main_v2 (o3 m c) := rfl

/-- After the first pass each of its arrays holds what the pipeline leaves, and every other buffer what it held. -/
theorem hF0 (c : Dev nD) : ∀ w : Fin cfg0.W, (dat0 (Vin0 m) c).arrAt w cfg0.N = (fun b : Ref sig .tc => Gen.V1 m (outsOf m) c b) (Pipeline.arrRef spec0 w)
  | ⟨0, _⟩ => (((dat0 (Vin0 m) c).arrAt_in 0 rfl _).trans (A_eq0 (Vin0 m) c 0)).trans (Gen.V1_of m (outsOf m) c main_arg1 (by decide)).symm
  | ⟨1, _⟩ => (((dat0 (Vin0 m) c).arrAt_in 1 rfl _).trans (A_eq0 (Vin0 m) c 1)).trans (Gen.V1_of m (outsOf m) c main_arg0 (by decide)).symm
  | ⟨2, _⟩ => (((dat0 (Vin0 m) c).arrAt_in 2 rfl _).trans (A_eq0 (Vin0 m) c 2)).trans (Gen.V1_of m (outsOf m) c main_arg2 (by decide)).symm
  | ⟨3, _⟩ => (W1_arr m c 3).symm.trans (Function.update_self (Proc.devRef .tc main_v0 : DevRef τ sig) (o1 m c) (Gen.V0 m c)).symm
theorem hrest0 (c : Dev nD) : ∀ b : Ref sig .tc, b ∉ Finset.univ.image (Pipeline.arrRef spec0) →
    (fun b : Ref sig .tc => Gen.V1 m (outsOf m) c b) b = Vin0 m c b := fun b hb =>
  Gen.V1_of m (outsOf m) c b (by
    intro h; rw [List.mem_singleton] at h; subst h
    exact hb (Finset.mem_image.mpr ⟨3, Finset.mem_univ _, rfl⟩))

/-- The same after the second pass. -/
theorem hF1 (c : Dev nD) : ∀ w : Fin cfg1.W, (dat1 (Vin1 m) c).arrAt w cfg1.N = (fun b : Ref sig .tc => Gen.V3 m (outsOf m) c b) (Pipeline.arrRef spec1 w)
  | ⟨0, _⟩ => (((dat1 (Vin1 m) c).arrAt_in 0 rfl _).trans (A_eq1 (Vin1 m) c 0)).trans (Gen.V3_of m (outsOf m) c main_arg1 (by decide)).symm
  | ⟨1, _⟩ => (((dat1 (Vin1 m) c).arrAt_in 1 rfl _).trans (A_eq1 (Vin1 m) c 1)).trans (Gen.V3_of m (outsOf m) c main_v0 (by decide)).symm
  | ⟨2, _⟩ => (((dat1 (Vin1 m) c).arrAt_in 2 rfl _).trans (A_eq1 (Vin1 m) c 2)).trans (Gen.V3_of m (outsOf m) c main_v1 (by decide)).symm
  | ⟨3, _⟩ => (W3_arr m c 3).symm.trans (Function.update_self (Proc.devRef .tc main_v2 : DevRef τ sig) (o3 m c) (U2 m c)).symm
theorem hrest1 (c : Dev nD) : ∀ b : Ref sig .tc, b ∉ Finset.univ.image (Pipeline.arrRef spec1) →
    (fun b : Ref sig .tc => Gen.V3 m (outsOf m) c b) b = Vin1 m c b := fun b hb =>
  Gen.V3_of m (outsOf m) c b (by
    intro h; rw [List.mem_singleton] at h; subst h
    exact hb (Finset.mem_image.mpr ⟨3, Finset.mem_univ _, rfl⟩))

/-! ## The proof data family and what rides beside the buffers -/

/-- Both passes' proof data, each at its entry contents. -/
def pdats : (p : Fin 2) → (c : Dev nD) → Dat τ (Elt F) Unit ℕ (UR sig nD τ) ℕ (Pipeline.pin (pcfgs (F := F)) Gen.adm p) c
  | ⟨0, _⟩ => fun c => dat0 (Vin0 m) c
  | ⟨1, _⟩ => fun c => dat1 (Vin1 m) c

/-- No core owes another anything: no level is assigned. -/
abbrev L0 : GSem nD τ sig → Finset Unit := fun _ => ∅
abbrev lv0 : GSem nD τ sig → Unit → ℕ := fun _ _ => 0
/-- Beside the buffers, through every item: the generator register at some state, and the core owing nothing. -/
abbrev Rr (c : Dev nD) : sProp 𝕄 := iprop((∃ r, prngReg c r) ∗ ∃ W, owes (c : Thread nD τ) (0 : CellTallies nD τ sig Unit) W)
abbrev Ee : Fin 3 → Dev nD → sProp 𝕄 := fun _ c => Rr c

/-! ## The two passes as records -/

set_option backward.isDefEq.respectTransparency.types false in
/-- The hyperedge pass: entered from every unscoped buffer at the launch contents, left with the hyperedge-feature
    array at what the pass wrote. Its arrays are split out of the unscoped buffers and put back at the exit contents;
    the scoped rest and the generator register enter the invariant and come back; nothing owed. -/
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L0 lv0 0 fun _ _ => rfl
  pre c := iprop(StableHlo.held (c : Thread nD τ) (Pipeline.ucRefs τ sig) (Gen.V0 m c) ∗ Rr c)
  post c := iprop(StableHlo.held (c : Thread nD τ) (Pipeline.ucRefs τ sig) (Gen.V1 m (outsOf m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (Phi0_in (Vin0 m) c)
    unfold Pipeline.ΦA
    iintro ⟨Hp, -, Hr⟩
    isplitl [Hr]; · iexact Hr
    iexact Hp
  hout c := by
    rw [Pipeline.ownSems0_none]
    refine Idealize.SL.BI.BIBase.Entails.trans (Phi0_out (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (fun b : Ref sig .tc => Gen.V1 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node pass: entered from the buffers after the host reshape, left with the result array at what the pass wrote. -/
def reg1 : Pipeline.RegionSeg (pcfgs (F := F)) Gen.adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L0 lv0 1 fun _ _ => rfl
  pre c := iprop(StableHlo.held (c : Thread nD τ) (Pipeline.ucRefs τ sig) (U2 m c) ∗ Rr c)
  post c := iprop(StableHlo.held (c : Thread nD τ) (Pipeline.ucRefs τ sig) (Gen.V3 m (outsOf m) c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 m c) (fun b : Ref sig .tc => Gen.V3 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch deals -/

abbrev u0 : UR sig nD τ := initOf (Pipeline.cells cfgs cellOf_inj) (Pipeline.launchToks cfgs cellOf_inj)

theorem hu0 : (ownU (u0 : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (iprop(emp) : sProp 𝕄))) ∗ levAts L0 lv0)
    ⊢ (|={Set.univ}=> bigSep Finset.univ (Ee (F := F) 0) : sProp 𝕄) := by
  refine Pipeline.initEach L0 lv0 fun c => ?_
  iintro ⟨⟨-, HO, -, Hp, -⟩, -⟩
  imodintro
  isplitl [Hp]; · iexists _; iexact Hp
  iexists ∅; iexact HO

theorem hE2 (c : Dev nD) : Ee (F := F) 2 c ⊢ (iprop(∃ W, owes (c : Thread nD τ) (0 : CellTallies nD τ sig Unit) W) : sProp 𝕄) := by
  iintro ⟨-, HO⟩; iexact HO

/-! ## The frame -/

/-- Every weakly fair execution terminates, nothing faults, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () Variants.none L0 lv0 (fun _ _ => rfl) ρ (outsOf m) (pdats m) 0 (fun _ => iprop(emp)) u0 hu0
    Ee (hE0 ρ) hE2 (reg0 m) (fun _ => .rfl) (fun _ => .rfl) (reg1 m) (fun c => by rw [V2_eq]; exact .rfl) (fun _ => .rfl)

end Cert.KernelIdeal.Reg

end
-- ==== Proof.IdealRunValue.lean ====
/-
  The run with the result named: the conditional frame's launch once more, its last reading extended by the result
  array — at the end of the last item every unscoped buffer holds the last valuation, the result array among them —
  and then its instance at the two passes' records, where the result array holds what the node pass wrote.
-/
import proofs.«126929_j11639361372554_1_alg».proof.Proof.Gen.KernelIdeal.Launch
import proofs.«126929_j11639361372554_1_alg».proof.Proof.Gen.KernelIdeal.Skeleton
import proofs.«126929_j11639361372554_1_alg».proof.Proof.Gen.KernelIdeal.Points
import proofs.«126929_j11639361372554_1_alg».proof.Proof.IdealRun
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

set_option backward.isDefEq.respectTransparency.types false in
/-- Given each pass's record entered from and left at the stated buffer contents, every weakly fair execution
    terminates with the result array at the last valuation's contents and each argument array as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V0 m c) ∗ E 0 c) ⊢ R0.pre c)
    (hpost0 : ∀ c : Dev nD, R0.post c ⊢ iprop(StableHlo.held (c : Thread nD τ) (Pipeline.ucRefs τ sig) (Gen.V1 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V2 m outs c) ∗ E 1 c) ⊢ R1.pre c)
    (hpost1 : ∀ c : Dev nD, R1.post c ⊢ iprop(StableHlo.held (c : Thread nD τ) (Pipeline.ucRefs τ sig) (Gen.V3 m outs c) ∗ E 2 c)) :
    θ_run defs (onTc (τ := τ) (main (F := F))) ⟨m, fun _ => 0, ρ⟩ (fun r => ∀ c : Dev nD,
      r.2.mem ((c.tc : Thread nD τ).loc main_v2) = Gen.V3 m outs c main_v2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V3 m outs c))
    (hch := fun c => ⟨hpre0 c, hpost0 c, hpre1 c, (hpost1 c).trans (sep_mono .rfl (hE2 c))⟩)
    (hinit := ?_) (QY := fun c s => s.mem ((c.tc : Thread nD τ).loc main_v2) = Gen.V3 m outs c main_v2 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (Gen.V3 m outs c) s') $$ [Hh HSI]
    · isplitl [Hh] <;> iassumption
    icases Hr with ⟨%h, HSI⟩
    imodintro
    isplitr
    · ipureintro
      exact ⟨h (Proc.devRef .tc main_v2) (Finset.mem_filter.mpr ⟨StableHlo.devRef_mem_tcRefs main_v2, by decide⟩),
        (h (Proc.devRef .tc main_arg0) (Finset.mem_filter.mpr ⟨StableHlo.devRef_mem_tcRefs main_arg0, by decide⟩)).trans (Gen.V3_main_arg0 m outs c),
        (h (Proc.devRef .tc main_arg1) (Finset.mem_filter.mpr ⟨StableHlo.devRef_mem_tcRefs main_arg1, by decide⟩)).trans (Gen.V3_main_arg1 m outs c),
        (h (Proc.devRef .tc main_arg2) (Finset.mem_filter.mpr ⟨StableHlo.devRef_mem_tcRefs main_arg2, by decide⟩)).trans (Gen.V3_main_arg2 m outs c),
        (h (Proc.devRef .tc main_arg3) (Finset.mem_filter.mpr ⟨StableHlo.devRef_mem_tcRefs main_arg3, by decide⟩)).trans (Gen.V3_main_arg3 m outs c)⟩
    · iexact HSI

variable (ρ : Dev nD → PrngReg)

/-- The program's run: the result array ends holding what the node pass's write-backs leave, the arguments as launched. -/
theorem run_value : θ_run defs (onTc (τ := τ) (main (F := F))) ⟨m, fun _ => 0, ρ⟩ (fun r => ∀ c : Dev nD,
      r.2.mem ((c.tc : Thread nD τ).loc main_v2) = (dat1 (Vin1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((hF1 m c 3).symm), (h c).2⟩)
    (run_cond m emb₁ () Variants.none L0 lv0 (fun _ _ => rfl) ρ (outsOf m) (pdats m) 0 (fun _ => iprop(emp)) u0 hu0
      Ee (hE0 ρ) hE2 (reg0 m) (fun _ => .rfl) (fun _ => .rfl) (reg1 m) (fun c => by rw [V2_eq]; exact .rfl) (fun _ => .rfl))

end Cert.KernelIdeal.Reg

end
-- ==== Proof.Spec.lean ====
/-
  What the program computes, index by index, over the extended reals.

  Inputs: node features `x` (4 × 8192 × 64), the incidence array `H` (4 × 8192 × 2048: batch, node, hyperedge), the
  projection `θ` (64 × 64) and a bias (64). A node's projected features are its feature row times `θ`. A hyperedge's
  features are the projected features of its nodes, weighted by the incidence column and summed, divided by the
  hyperedge's degree (the column sum). A node's result is the hyperedge features weighted by the node's incidence
  row and summed, divided by the node's degree (the row sum), plus the bias. Sums are finite sums of extended reals
  (their order and grouping do not matter); the quotient is the ideal instance's division, whatever the divisor.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 8192, 64]⟩
abbrev SH : Shape := ⟨3, ![4, 8192, 2048]⟩
abbrev ST : Shape := ⟨2, ![64, 64]⟩
abbrev SB : Shape := ⟨1, ![64]⟩
abbrev SXE : Shape := ⟨3, ![4, 64, 2048]⟩
abbrev SB2 : Shape := ⟨2, ![1, 64]⟩

/-- A node's projected features: its feature row times the projection matrix. -/
def proj (x : SX.Idx → EReal) (θ : ST.Idx → EReal) (b : Fin 4) (n : Fin 8192) (o : Fin 64) : EReal :=
  ∑ i : Fin 64, x (ix3 b n i) * θ (ix2 i o)

/-- A hyperedge's degree: its incidence column summed over the nodes. -/
def degE (H : SH.Idx → EReal) (b : Fin 4) (e : Fin 2048) : EReal := ∑ n : Fin 8192, H (ix3 b n e)

/-- A hyperedge's features: its nodes' projected features, weighted by incidence and summed, over its degree. -/
def edgeFeat (x : SX.Idx → EReal) (H : SH.Idx → EReal) (θ : ST.Idx → EReal) (b : Fin 4) (o : Fin 64) (e : Fin 2048) : EReal :=
  Ideal.div (∑ n : Fin 8192, H (ix3 b n e) * proj x θ b n o) (degE H b e)

/-- The hyperedge features as the first pass stores them: batch, feature, hyperedge. -/
def XE (x : SX.Idx → EReal) (H : SH.Idx → EReal) (θ : ST.Idx → EReal) : SXE.Idx → EReal :=
  fun j => edgeFeat x H θ (j 0) (j 1) (j 2)

/-- A node's degree: its incidence row summed over the hyperedges. -/
def degN (H : SH.Idx → EReal) (b : Fin 4) (n : Fin 8192) : EReal := ∑ e : Fin 2048, H (ix3 b n e)

/-- The node pass from ANY stored hyperedge features and ANY 1 × 64 bias row. -/
def OUT2 (H : SH.Idx → EReal) (xe : SXE.Idx → EReal) (b2 : SB2.Idx → EReal) : SX.Idx → EReal := fun j =>
  Ideal.div (∑ e : Fin 2048, H (ix3 (j 0) (j 1) e) * xe (ix3 (j 0) (j 2) e)) (degN H (j 0) (j 1)) + b2 (ix2 0 (j 2))

/-- The whole result. -/
def OUT (x : SX.Idx → EReal) (H : SH.Idx → EReal) (θ : ST.Idx → EReal) (bias : SB.Idx → EReal) : SX.Idx → EReal :=
  OUT2 H (XE x H θ) (fun j => bias (ix1 (j 1)))

end Cert.Spec

end
-- ==== Proof.IdealVal0.lean ====
/-
  The hyperedge pass's value at the ideal instance: the array it leaves holds, at batch b, feature o, hyperedge e,
  the incidence-weighted sum over ALL nodes of the projected features, over the hyperedge's degree — the eight
  tile-wise partial sums the two accumulators collect are one sum over the 8192 nodes.
-/
import proofs.«126929_j11639361372554_1_alg».proof.Proof.IdealRegion0
import proofs.«126929_j11639361372554_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.Edge

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Reg

variable (V : (c : Dev nD) → (b : Ref sig .tc) → Buf (Elt Ideal) ((c : Thread nD τ).loc b))

/-! ## The tile step's three payloads, read at an index -/

/-- The projection's contraction: operand axes. The left operand (a tile's node features, node × input feature) is
    contracted along its input-feature axis against the projection matrix's first axis. -/
theorem lhs_proj_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs_proj_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs_proj_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs_proj_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- A tile's projected features at node j, output feature o: the node's feature row times the projection's column. -/
theorem proj_apply (a : FVec Ideal S1024x64 .bf16) (b : FVec Ideal S64x64 .bf16) (j : Fin 1024) (o : Fin 64) :
    matmul dot_S1024x64_S64x64_S1024x64_1_0_0_1_n_n none a b (constant (F := Ideal) S1024x64 .f32 0x00000000#32) (ix2 j o)
      = ∑ i : Fin 64, a (ix2 j i) * b (ix2 i o) := by
  simp only [matmul]
  rw [Ideal.matmul_constant_zero_apply, ← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 j o) ((ValueIdx.contrEquiv1 dot_S1024x64_S64x64_S1024x64_1_0_0_1_n_n 64 rfl rfl).symm k) = ix2 j k := funext fun a => Fin.ext (by
    match a with
    | ⟨0, _⟩ => exact lhs_proj_0 _ _
    | ⟨1, _⟩ => exact (lhs_proj_1 _ _).trans hk)
  have er : dot_S1024x64_S64x64_S1024x64_1_0_0_1_n_n.rhsIdx (ix2 j o) ((ValueIdx.contrEquiv1 dot_S1024x64_S64x64_S1024x64_1_0_0_1_n_n 64 rfl rfl).symm k) = ix2 k o := funext fun a => Fin.ext (by
    match a with
    | ⟨0, _⟩ => exact (rhs_proj_0 _ _).trans hk
    | ⟨1, _⟩ => exact rhs_proj_1 _ _)
  rw [el, er]

/-- The second contraction: the projected features (node × output feature) against the incidence tile (node × hyperedge),
    both along the node axis. -/
theorem lhs_inc_0 (i : S64x2048.Idx) (q : dot_S1024x64_S1024x2048_S64x2048_0_0_1_1_n_n.contr.Idx) :
    (dot_S1024x64_S1024x2048_S64x2048_0_0_1_1_n_n.lhsIdx i q 0).val = (q ⟨0, by decide⟩).val :=
  dot_S1024x64_S1024x2048_S64x2048_0_0_1_1_n_n.lhsIdx_val_of_single rfl i q
theorem lhs_inc_1 (i : S64x2048.Idx) (q : dot_S1024x64_S1024x2048_S64x2048_0_0_1_1_n_n.contr.Idx) :
    (dot_S1024x64_S1024x2048_S64x2048_0_0_1_1_n_n.lhsIdx i q 1).val = (i 0).val := by
  unfold DotDims.lhsIdx
  rw [dif_neg (show ¬(1 : Fin S1024x64.rank) ∈ dot_S1024x64_S1024x2048_S64x2048_0_0_1_1_n_n.lhsBatch by decide), dif_pos (show (1 : Fin S1024x64.rank) ∈ dot_S1024x64_S1024x2048_S64x2048_0_0_1_1_n_n.lhsNonContracting by decide)]
  rfl
theorem rhs_inc_0 (i : S64x2048.Idx) (q : dot_S1024x64_S1024x2048_S64x2048_0_0_1_1_n_n.contr.Idx) :
    (dot_S1024x64_S1024x2048_S64x2048_0_0_1_1_n_n.rhsIdx i q 0).val = (q ⟨0, by decide⟩).val :=
  dot_S1024x64_S1024x2048_S64x2048_0_0_1_1_n_n.rhsIdx_val_of_single rfl i q
theorem rhs_inc_1 (i : S64x2048.Idx) (q : dot_S1024x64_S1024x2048_S64x2048_0_0_1_1_n_n.contr.Idx) :
    (dot_S1024x64_S1024x2048_S64x2048_0_0_1_1_n_n.rhsIdx i q 1).val = (i 1).val := by
  unfold DotDims.rhsIdx
  rw [dif_neg (show ¬(1 : Fin S1024x2048.rank) ∈ dot_S1024x64_S1024x2048_S64x2048_0_0_1_1_n_n.rhsBatch by decide), dif_pos (show (1 : Fin S1024x2048.rank) ∈ dot_S1024x64_S1024x2048_S64x2048_0_0_1_1_n_n.rhsNonContracting by decide)]
  rfl

/-- A tile's contribution to hyperedge e's feature o: over the tile's nodes, projected feature times incidence. -/
theorem inc_apply (a : FVec Ideal S1024x64 .bf16) (b : FVec Ideal S1024x2048 .bf16) (o : Fin 64) (e : Fin 2048) :
    matmul dot_S1024x64_S1024x2048_S64x2048_0_0_1_1_n_n none a b (constant (F := Ideal) S64x2048 .f32 0x00000000#32) (ix2 o e)
      = ∑ j : Fin 1024, a (ix2 j o) * b (ix2 j e) := by
  simp only [matmul]
  rw [Ideal.matmul_constant_zero_apply, ← Equiv.sum_comp (ValueIdx.contrEquiv1 dot_S1024x64_S1024x2048_S64x2048_0_0_1_1_n_n 1024 rfl rfl).symm]
  refine Finset.sum_congr rfl fun k _ => ?_
  have hk := ValueIdx.contrEquiv1_symm_val dot_S1024x64_S1024x2048_S64x2048_0_0_1_1_n_n 1024 rfl rfl k
  have el : dot_S1024x64_S1024x2048_S64x2048_0_0_1_1_n_n.lhsIdx (ix2 o e) ((ValueIdx.contrEquiv1 dot_S1024x64_S1024x2048_S64x2048_0_0_1_1_n_n 1024 rfl rfl).symm k) = ix2 k o := funext fun a => Fin.ext (by
    match a with
    | ⟨0, _⟩ => exact (lhs_inc_0 _ _).trans hk
    | ⟨1, _⟩ => exact lhs_inc_1 _ _)
  have er : dot_S1024x64_S1024x2048_S64x2048_0_0_1_1_n_n.rhsIdx (ix2 o e) ((ValueIdx.contrEquiv1 dot_S1024x64_S1024x2048_S64x2048_0_0_1_1_n_n 1024 rfl rfl).symm k) = ix2 k e := funext fun a => Fin.ext (by
    match a with
    | ⟨0, _⟩ => exact (rhs_inc_0 _ _).trans hk
    | ⟨1, _⟩ => exact rhs_inc_1 _ _)
  rw [el, er]

/-- The incidence tile without its leading unit axis. -/
theorem tile_apply (h : Vec Ideal S1x1024x2048 .f32) (j : Fin 1024) (e : Fin 2048) :
    k0_pay3 h (ix2 j e) = h (ix3 (0 : Fin 1) j e) := by
  unfold k0_pay3
  exact shapeCast_1ab_ab_apply h _ j e

/-- The feature accumulator's step: it gains, at feature o and hyperedge e, the sum over the tile's nodes of the node's
    projected feature o times its incidence with e. -/
theorem featStep_apply (h : Vec Ideal S1x1024x2048 .f32) (x : Vec Ideal S1x1024x64 .f32) (θ : Vec Ideal S64x64 .f32)
    (acc : Vec Ideal S64x2048 .f32) (o : Fin 64) (e : Fin 2048) :
    k0_pay4 h x θ acc (ix2 o e)
      = acc (ix2 o e) + ∑ j : Fin 1024, (∑ i : Fin 64, x (ix3 (0 : Fin 1) j i) * θ (ix2 i o)) * h (ix3 (0 : Fin 1) j e) := by
  unfold k0_pay4
  refine (congrFun (shapeCast_self _ _) (ix2 o e)).trans ?_
  refine congrArg (acc (ix2 o e) + ·) ?_
  refine (inc_apply _ _ o e).trans ?_
  refine Finset.sum_congr rfl fun j _ => ?_
  refine congrArg₂ (· * ·) ?_ (tile_apply h j e)
  refine (proj_apply _ _ j o).trans ?_
  refine Finset.sum_congr rfl fun i _ => ?_
  exact congrArg (· * θ (ix2 i o)) (shapeCast_1ab_ab_apply x _ j i)

/-- The degree accumulator's step: it gains, at hyperedge e, the tile's column sum. -/
theorem degStep_apply (h : Vec Ideal S1x1024x2048 .f32) (deg : Vec Ideal S1x2048 .f32) (e : Fin 2048) :
    k0_pay5 h deg (ix2 (0 : Fin 1) e) = deg (ix2 (0 : Fin 1) e) + ∑ j : Fin 1024, h (ix3 (0 : Fin 1) j e) := by
  unfold k0_pay5
  refine (congrFun (shapeCast_self _ _) (ix2 (0 : Fin 1) e)).trans ?_
  refine congrArg (deg (ix2 (0 : Fin 1) e) + ·) ?_
  refine (shapeCast_a_1a_apply _ _ (0 : Fin 1) e).trans ?_
  refine (Ideal.multiReduction_add_single _ _ _ _ _ (ix1 e)).trans ?_
  refine Finset.sum_congr rfl fun j _ => ?_
  refine Eq.trans (congrArg (k0_pay3 h) ?_) (tile_apply h j e)
  funext a
  refine Fin.ext ?_
  match a with
  | ⟨0, _⟩ => rfl
  | ⟨1, _⟩ => rfl

/-- The quotient the last tile stores: feature accumulator over degree accumulator, hyperedge by hyperedge. -/
theorem quot_apply (acc : Vec Ideal S64x2048 .f32) (deg : Vec Ideal S1x2048 .f32) (o : Fin 64) (e : Fin 2048) :
    k0_pay6 acc deg (ix3 (0 : Fin 1) o e) = Ideal.div (acc (ix2 o e)) (deg (ix2 (0 : Fin 1) e)) := by
  unfold k0_pay6
  refine (shapeCast_ab_1ab_apply _ _ (0 : Fin 1) o e).trans ?_
  exact congrArg (Ideal.div (acc (ix2 o e))) (broadcastTo_1b_ab_apply deg _ o e)

/-- The two accumulators start at zero. -/
theorem featZero_apply (j : S64x2048.Idx) : (k0_pay1 (F := Ideal)) j = 0 := by
  unfold k0_pay1
  refine (congrFun (shapeCast_self _ _) j).trans ?_
  exact Ideal.ofBits_zero_f32
theorem degZero_apply (j : S1x2048.Idx) : (k0_pay2 (F := Ideal)) j = 0 := by
  unfold k0_pay2
  refine (congrFun (shapeCast_self _ _) j).trans ?_
  exact Ideal.ofBits_zero_f32

/-! ## The blocks a grid point reads, as blocks of the arrays -/

/-- The incidence tile, the node-feature tile and the projection matrix the pass reads at point t; the three arrays
    they are blocks of. -/
abbrev hblk (c : Dev nD) (t : Fin cfg0.N) : Vec Ideal S1x1024x2048 .f32 := iblk0 V c 0 t
abbrev xblk (c : Dev nD) (t : Fin cfg0.N) : Vec Ideal S1x1024x64 .f32 := iblk0 V c 1 t
abbrev wblk (c : Dev nD) (t : Fin cfg0.N) : Vec Ideal S64x64 .f32 := iblk0 V c 2 t
abbrev Harr (c : Dev nD) : S4x8192x2048.Idx → EReal := V c main_arg1
abbrev Xarr (c : Dev nD) : S4x8192x64.Idx → EReal := V c main_arg0
abbrev Warr (c : Dev nD) : S64x64.Idx → EReal := V c main_arg2

/-- Point t = 8·b + k reads batch element b's node tile k of the incidence and feature arrays, the whole projection
    matrix, and writes batch element b's block of the output: decided over the 32 points. -/
theorem blockIdx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem blockIdx1 : ∀ t : Fin cfg0.N, win0_1.index t (0 : Fin 3) = t.val / 8 ∧ win0_1.index t (1 : Fin 3) = t.val % 8
    ∧ win0_1.index t (2 : Fin 3) = 0 :=
  (by decide +kernel : ∀ t : Fin grid0.N, _)
theorem blockIdx2 : ∀ t : Fin cfg0.N, win0_2.index t (0 : Fin 2) = 0 ∧ win0_2.index t (1 : Fin 2) = 0 :=
  (by decide +kernel : ∀ t : Fin grid0.N, _)
theorem blockIdx3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)

/-- The incidence tile's row j is node (t mod 8)·1024 + j of batch element t / 8. -/
theorem hblk_apply (c : Dev nD) (t : Fin cfg0.N) (j : Fin 1024) (e : Fin 2048) (b : Fin 4) (n : Fin 8192)
    (hb : b.val = t.val / 8) (hn : n.val = t.val % 8 * 1024 + j.val) :
    hblk V c t (ix3 (0 : Fin 1) j e) = Harr V c (ix3 b n e) := by
  obtain ⟨e0, e1, e2⟩ := blockIdx0 t
  show V c main_arg1 (((cfg0.win 0).blk t).view.emb (ix3 (0 : Fin 1) j e)) = V c main_arg1 (ix3 b n e)
  refine congrArg (V c main_arg1) (funext fun a => Fin.ext ?_)
  match a with
  | ⟨0, _⟩ => show win0_0.index t (0 : Fin 3) * 1 + 1 * 0 = b.val; rw [e0, hb]; omega
  | ⟨1, _⟩ => show win0_0.index t (1 : Fin 3) * 1024 + 1 * j.val = n.val; rw [e1, hn]; omega
  | ⟨2, _⟩ => show win0_0.index t (2 : Fin 3) * 2048 + 1 * e.val = e.val; rw [e2]; omega

/-- The feature tile's row j likewise. -/
theorem xblk_apply (c : Dev nD) (t : Fin cfg0.N) (j : Fin 1024) (i : Fin 64) (b : Fin 4) (n : Fin 8192)
    (hb : b.val = t.val / 8) (hn : n.val = t.val % 8 * 1024 + j.val) :
    xblk V c t (ix3 (0 : Fin 1) j i) = Xarr V c (ix3 b n i) := by
  obtain ⟨e0, e1, e2⟩ := blockIdx1 t
  show V c main_arg0 (((cfg0.win 1).blk t).view.emb (ix3 (0 : Fin 1) j i)) = V c main_arg0 (ix3 b n i)
  refine congrArg (V c main_arg0) (funext fun a => Fin.ext ?_)
  match a with
  | ⟨0, _⟩ => show win0_1.index t (0 : Fin 3) * 1 + 1 * 0 = b.val; rw [e0, hb]; omega
  | ⟨1, _⟩ => show win0_1.index t (1 : Fin 3) * 1024 + 1 * j.val = n.val; rw [e1, hn]; omega
  | ⟨2, _⟩ => show win0_1.index t (2 : Fin 3) * 64 + 1 * i.val = i.val; rw [e2]; omega

/-- The projection matrix is read whole at every point. -/
theorem wblk_apply (c : Dev nD) (t : Fin cfg0.N) (i : Fin 64) (o : Fin 64) :
    wblk V c t (ix2 i o) = Warr V c (ix2 i o) := by
  obtain ⟨e0, e1⟩ := blockIdx2 t
  show V c main_arg2 (((cfg0.win 2).blk t).view.emb (ix2 i o)) = V c main_arg2 (ix2 i o)
  refine congrArg (V c main_arg2) (funext fun a => Fin.ext ?_)
  match a with
  | ⟨0, _⟩ => show win0_2.index t (0 : Fin 2) * 64 + 1 * i.val = i.val; rw [e0]; omega
  | ⟨1, _⟩ => show win0_2.index t (1 : Fin 2) * 64 + 1 * o.val = o.val; rw [e1]; omega

/-- One tile's step at an index, over the blocks of its point. -/
theorem step_feat (c : Dev nD) (t : Fin cfg0.N) (p : Vec Ideal S64x2048 .f32 × Vec Ideal S1x2048 .f32) (o : Fin 64) (e : Fin 2048) :
    (stepAt V c t p).1 (ix2 o e)
      = p.1 (ix2 o e) + ∑ j : Fin 1024, (∑ i : Fin 64, xblk V c t (ix3 (0 : Fin 1) j i) * wblk V c t (ix2 i o)) * hblk V c t (ix3 (0 : Fin 1) j e) :=
  featStep_apply (hblk V c t) (xblk V c t) (wblk V c t) p.1 o e
theorem step_deg (c : Dev nD) (t : Fin cfg0.N) (p : Vec Ideal S64x2048 .f32 × Vec Ideal S1x2048 .f32) (e : Fin 2048) :
    (stepAt V c t p).2 (ix2 (0 : Fin 1) e) = p.2 (ix2 (0 : Fin 1) e) + ∑ j : Fin 1024, hblk V c t (ix3 (0 : Fin 1) j e) :=
  degStep_apply (hblk V c t) p.2 e

/-! ## The two accumulators after each tile -/

/-- Node n's contribution to hyperedge e's feature o in batch element b: its projected feature o times its incidence
    with e; and its contribution to e's degree: that incidence. -/
def featTerm (c : Dev nD) (b : Fin 4) (o : Fin 64) (e : Fin 2048) (n : Fin 8192) : EReal :=
  (∑ i : Fin 64, Xarr V c (ix3 b n i) * Warr V c (ix2 i o)) * Harr V c (ix3 b n e)
def degTerm (c : Dev nD) (b : Fin 4) (e : Fin 2048) (n : Fin 8192) : EReal := Harr V c (ix3 b n e)

/-- The sum of f over node tile k (nodes 1024·k to 1024·k + 1023); zero past the eight tiles. -/
def tileSum (f : Fin 8192 → EReal) (k : ℕ) : EReal :=
  if hk : k < 8 then ∑ j : Fin 1024, f ⟨k * 1024 + j.val, by have := j.isLt; omega⟩ else 0

/-- The eight tile sums are one sum over the 8192 nodes: a node is its tile and its place in the tile. -/
theorem tiles_sum (f : Fin 8192 → EReal) : ∑ k ∈ Finset.range 8, tileSum f k = ∑ n : Fin 8192, f n := by
  rw [Finset.sum_range]
  have e1 : ∀ k : Fin 8, tileSum f k.val = ∑ j : Fin 1024, f (finProdFinEquiv (m := 8) (n := 1024) (k, j)) := fun k => by
    unfold tileSum
    rw [dif_pos k.isLt]
    refine Finset.sum_congr rfl fun j _ => congrArg f (Fin.ext ?_)
    show k.val * 1024 + j.val = j.val + 1024 * k.val
    omega
  rw [Finset.sum_congr rfl fun k _ => e1 k,
    ← Fintype.sum_prod_type (f := fun p : Fin 8 × Fin 1024 => f (finProdFinEquiv (m := 8) (n := 1024) p))]
  exact Equiv.sum_comp (finProdFinEquiv (m := 8) (n := 1024)) f

/-- The tile point t reads, summed: tile (t mod 8) of batch element t / 8. -/
theorem tile_feat (c : Dev nD) (t : Fin cfg0.N) (b : Fin 4) (k : ℕ) (hb : b.val = t.val / 8) (hk : k = t.val % 8) (o : Fin 64) (e : Fin 2048) :
    ∑ j : Fin 1024, (∑ i : Fin 64, xblk V c t (ix3 (0 : Fin 1) j i) * wblk V c t (ix2 i o)) * hblk V c t (ix3 (0 : Fin 1) j e)
      = tileSum (featTerm V c b o e) k := by
  have hk8 : k < 8 := by omega
  unfold tileSum
  rw [dif_pos hk8]
  refine Finset.sum_congr rfl fun j _ => ?_
  unfold featTerm
  rw [hblk_apply V c t j e b ⟨k * 1024 + j.val, by have := j.isLt; omega⟩ hb (by show k * 1024 + j.val = _; rw [hk])]
  refine congrArg (· * Harr V c (ix3 b ⟨k * 1024 + j.val, _⟩ e)) (Finset.sum_congr rfl fun i _ => ?_)
  rw [xblk_apply V c t j i b ⟨k * 1024 + j.val, by have := j.isLt; omega⟩ hb (by show k * 1024 + j.val = _; rw [hk]), wblk_apply V c t i o]
theorem tile_deg (c : Dev nD) (t : Fin cfg0.N) (b : Fin 4) (k : ℕ) (hb : b.val = t.val / 8) (hk : k = t.val % 8) (e : Fin 2048) :
    ∑ j : Fin 1024, hblk V c t (ix3 (0 : Fin 1) j e) = tileSum (degTerm V c b e) k := by
  have hk8 : k < 8 := by omega
  unfold tileSum
  rw [dif_pos hk8]
  refine Finset.sum_congr rfl fun j _ => ?_
  unfold degTerm
  exact hblk_apply V c t j e b ⟨k * 1024 + j.val, by have := j.isLt; omega⟩ hb (by show k * 1024 + j.val = _; rw [hk])

/-- The accumulators at one position named two ways. -/
theorem accAt0_congr (c : Dev nD) {n n' : ℕ} (hn : n < cfg0.N) (hn' : n' < cfg0.N) (h : n = n') :
    accAt0 V c n hn = accAt0 V c n' hn' := by subst h; rfl

/-- After tile k of batch element b the feature accumulator holds the first k + 1 tile sums, -/
theorem feat_inv (c : Dev nD) (b : Fin 4) (o : Fin 64) (e : Fin 2048) :
    ∀ (k : ℕ) (hk : k < 8) (ht : 8 * b.val + k < cfg0.N),
      (accAt0 V c (8 * b.val + k) ht).1 (ix2 o e) = ∑ k' ∈ Finset.range (k + 1), tileSum (featTerm V c b o e) k'
  | 0, hk, ht => by
    have h0 : (⟨8 * b.val + 0, ht⟩ : Fin cfg0.N).val % 8 = 0 := by show (8 * b.val + 0) % 8 = 0; omega
    have hs : accAt0 V c (8 * b.val + 0) ht = stepAt V c ⟨8 * b.val + 0, ht⟩ (k0_pay1 (F := Ideal), k0_pay2 (F := Ideal)) := accAt0_first V c ⟨8 * b.val + 0, ht⟩ h0
    rw [hs, step_feat, Finset.sum_range_one,
      tile_feat V c ⟨8 * b.val + 0, ht⟩ b 0 (by show b.val = (8 * b.val + 0) / 8; omega) (by show 0 = (8 * b.val + 0) % 8; omega) o e]
    show (k0_pay1 (F := Ideal)) (ix2 o e) + _ = _
    rw [featZero_apply, zero_add]
  | k + 1, hk, ht => by
    have hne : ¬(⟨8 * b.val + (k + 1), ht⟩ : Fin cfg0.N).val % 8 = 0 := by show ¬(8 * b.val + (k + 1)) % 8 = 0; omega
    have hprev : 8 * b.val + k < cfg0.N := by omega
    have hs : accAt0 V c (8 * b.val + (k + 1)) ht = stepAt V c ⟨8 * b.val + (k + 1), ht⟩ (accAt0 V c (8 * b.val + k) hprev) :=
      (accAt0_next V c ⟨8 * b.val + (k + 1), ht⟩ hne).trans
        (congrArg (stepAt V c ⟨8 * b.val + (k + 1), ht⟩) (accAt0_congr V c _ hprev (by show 8 * b.val + (k + 1) - 1 = 8 * b.val + k; omega)))
    rw [hs, step_feat, feat_inv c b o e k (by omega) hprev, Finset.sum_range_succ _ (k + 1),
      tile_feat V c ⟨8 * b.val + (k + 1), ht⟩ b (k + 1) (by show b.val = (8 * b.val + (k + 1)) / 8; omega)
        (by show k + 1 = (8 * b.val + (k + 1)) % 8; omega) o e]

/-- and the degree accumulator the first k + 1 column sums. -/
theorem deg_inv (c : Dev nD) (b : Fin 4) (e : Fin 2048) :
    ∀ (k : ℕ) (hk : k < 8) (ht : 8 * b.val + k < cfg0.N),
      (accAt0 V c (8 * b.val + k) ht).2 (ix2 (0 : Fin 1) e) = ∑ k' ∈ Finset.range (k + 1), tileSum (degTerm V c b e) k'
  | 0, hk, ht => by
    have h0 : (⟨8 * b.val + 0, ht⟩ : Fin cfg0.N).val % 8 = 0 := by show (8 * b.val + 0) % 8 = 0; omega
    have hs : accAt0 V c (8 * b.val + 0) ht = stepAt V c ⟨8 * b.val + 0, ht⟩ (k0_pay1 (F := Ideal), k0_pay2 (F := Ideal)) := accAt0_first V c ⟨8 * b.val + 0, ht⟩ h0
    rw [hs, step_deg, Finset.sum_range_one,
      tile_deg V c ⟨8 * b.val + 0, ht⟩ b 0 (by show b.val = (8 * b.val + 0) / 8; omega) (by show 0 = (8 * b.val + 0) % 8; omega) e]
    show (k0_pay2 (F := Ideal)) (ix2 (0 : Fin 1) e) + _ = _
    rw [degZero_apply, zero_add]
  | k + 1, hk, ht => by
    have hne : ¬(⟨8 * b.val + (k + 1), ht⟩ : Fin cfg0.N).val % 8 = 0 := by show ¬(8 * b.val + (k + 1)) % 8 = 0; omega
    have hprev : 8 * b.val + k < cfg0.N := by omega
    have hs : accAt0 V c (8 * b.val + (k + 1)) ht = stepAt V c ⟨8 * b.val + (k + 1), ht⟩ (accAt0 V c (8 * b.val + k) hprev) :=
      (accAt0_next V c ⟨8 * b.val + (k + 1), ht⟩ hne).trans
        (congrArg (stepAt V c ⟨8 * b.val + (k + 1), ht⟩) (accAt0_congr V c _ hprev (by show 8 * b.val + (k + 1) - 1 = 8 * b.val + k; omega)))
    rw [hs, step_deg, deg_inv c b e k (by omega) hprev, Finset.sum_range_succ _ (k + 1),
      tile_deg V c ⟨8 * b.val + (k + 1), ht⟩ b (k + 1) (by show b.val = (8 * b.val + (k + 1)) / 8; omega)
        (by show k + 1 = (8 * b.val + (k + 1)) % 8; omega) e]

/-! ## From the last tile's quotient to the array -/

/-- After the last tile the accumulators hold the sums over all 8192 nodes. -/
theorem feat_last (c : Dev nD) (t : Fin cfg0.N) (b : Fin 4) (hb : b.val = t.val / 8) (h7 : t.val % 8 = 7) (o : Fin 64) (e : Fin 2048) :
    (accAt0 V c t.val t.isLt).1 (ix2 o e) = ∑ n : Fin 8192, featTerm V c b o e n := by
  have ht : 8 * b.val + 7 < cfg0.N := by have := t.isLt; omega
  rw [accAt0_congr V c t.isLt ht (by omega), feat_inv V c b o e 7 (by omega) ht]
  exact tiles_sum _
theorem deg_last (c : Dev nD) (t : Fin cfg0.N) (b : Fin 4) (hb : b.val = t.val / 8) (h7 : t.val % 8 = 7) (e : Fin 2048) :
    (accAt0 V c t.val t.isLt).2 (ix2 (0 : Fin 1) e) = ∑ n : Fin 8192, degTerm V c b e n := by
  have ht : 8 * b.val + 7 < cfg0.N := by have := t.isLt; omega
  rw [accAt0_congr V c t.isLt ht (by omega), deg_inv V c b e 7 (by omega) ht]
  exact tiles_sum _

/-- What a last tile writes back is its batch element's block of the hyperedge features. -/
theorem flushed_eq (c : Dev nD) (t : Fin cfg0.N) (hf : (cfg0.win 3).flush t = true) :
    (dat0 (F := Ideal) V c).flushed 3 t
      = ((cfg0.win 3).blk t).view.read (Elt Ideal) (Cert.Spec.XE (V c main_arg0) (V c main_arg1) (V c main_arg2)) := by
  have h7 : t.val % 8 = 7 := (flush0_3 t).mp hf
  have hN : cfg0.N = 32 := N_0
  obtain ⟨e0, e1, e2⟩ := blockIdx3 t
  show (cfg0.win 3).cut (grid0.coords t) ((dat0 (F := Ideal) V c).after 3 t) = _
  rw [after0_3]
  funext y
  obtain ⟨u, o, e, rfl⟩ : ∃ (u : Fin 1) (o : Fin 64) (e : Fin 2048), y = ix3 u o e :=
    ⟨y 0, y 1, y 2, eq_ix3 (n0 := 1) (n1 := 64) (n2 := 2048) y⟩
  obtain rfl : u = 0 := Subsingleton.elim _ _
  have hb : t.val / 8 < 4 := by have := t.isLt; omega
  have hj : ((cfg0.win 3).blk t).view.emb (ix3 (0 : Fin 1) o e) = ix3 (⟨t.val / 8, hb⟩ : Fin 4) o e := funext fun a => Fin.ext (by
    match a with
    | ⟨0, _⟩ => show win0_3.index t (0 : Fin 3) * 1 + 1 * 0 = t.val / 8; rw [e0]; omega
    | ⟨1, _⟩ => show win0_3.index t (1 : Fin 3) * 64 + 1 * o.val = o.val; rw [e1]; omega
    | ⟨2, _⟩ => show win0_3.index t (2 : Fin 3) * 2048 + 1 * e.val = e.val; rw [e2]; omega)
  show k0_pay6 (accAt0 V c t.val t.isLt).1 (accAt0 V c t.val t.isLt).2 (ix3 (0 : Fin 1) o e)
    = Cert.Spec.XE (Xarr V c) (Harr V c) (Warr V c) (((cfg0.win 3).blk t).view.emb (ix3 (0 : Fin 1) o e))
  rw [hj]
  refine (quot_apply _ _ o e).trans ?_
  rw [feat_last V c t ⟨t.val / 8, hb⟩ rfl h7 o e, deg_last V c t ⟨t.val / 8, hb⟩ rfl h7 e]
  show _ = Ideal.div (∑ n : Fin 8192, Harr V c (ix3 ⟨t.val / 8, hb⟩ n e) * Cert.Spec.proj (Xarr V c) (Warr V c) ⟨t.val / 8, hb⟩ n o)
    (Cert.Spec.degE (Harr V c) ⟨t.val / 8, hb⟩ e)
  refine congrArg₂ Ideal.div (Finset.sum_congr rfl fun n _ => ?_) rfl
  exact mul_comm _ _

/-- An array index lies in one point's output block when its batch coordinate is the point's. -/
theorem mem_blk3 (t : Fin cfg0.N) (i : S4x64x2048.Idx) :
    i ∈ ((cfg0.win 3).blk t).view.set ↔ ∀ a : Fin 3, win0_3.index t a * S1x64x2048.size a ≤ (i a).val ∧ (i a).val < win0_3.index t a * S1x64x2048.size a + S1x64x2048.size a := by
  show i ∈ ((View.whole main_v0).slice (win0_3.rect t)).set ↔ _
  rw [View.set_slice_whole, Rect.mem_set_unit]
  exact Iff.rfl

/-- Every index of the output array lies in the block its batch element's last tile writes back. -/
theorem covered (i : S4x64x2048.Idx) :
    ∃ t : Fin cfg0.N, (cfg0.win 3).flush t = true ∧ i ∈ ((cfg0.win 3).blk t).view.set := by
  have hN : cfg0.N = 32 := N_0
  have hi0 : (i 0).val < 4 := (i 0).isLt
  have hi1 : (i 1).val < 64 := (i 1).isLt
  have hi2 : (i 2).val < 2048 := (i 2).isLt
  have htlt : 8 * (i 0).val + 7 < cfg0.N := by omega
  obtain ⟨e0, e1, e2⟩ := blockIdx3 ⟨8 * (i 0).val + 7, htlt⟩
  have e0' : win0_3.index ⟨8 * (i 0).val + 7, htlt⟩ (0 : Fin 3) = (8 * (i 0).val + 7) / 8 := e0
  refine ⟨⟨8 * (i 0).val + 7, htlt⟩, (flush0_3 _).mpr (by show (8 * (i 0).val + 7) % 8 = 7; omega), ?_⟩
  rw [mem_blk3]
  intro a
  match a with
  | ⟨0, _⟩ => show win0_3.index ⟨8 * (i 0).val + 7, htlt⟩ (0 : Fin 3) * 1 ≤ (i 0).val ∧ (i 0).val < win0_3.index ⟨8 * (i 0).val + 7, htlt⟩ (0 : Fin 3) * 1 + 1; rw [e0']; omega
  | ⟨1, _⟩ => show win0_3.index ⟨8 * (i 0).val + 7, htlt⟩ (1 : Fin 3) * 64 ≤ (i 1).val ∧ (i 1).val < win0_3.index ⟨8 * (i 0).val + 7, htlt⟩ (1 : Fin 3) * 64 + 64; rw [e1]; omega
  | ⟨2, _⟩ => show win0_3.index ⟨8 * (i 0).val + 7, htlt⟩ (2 : Fin 3) * 2048 ≤ (i 2).val ∧ (i 2).val < win0_3.index ⟨8 * (i 0).val + 7, htlt⟩ (2 : Fin 3) * 2048 + 2048; rw [e2]; omega

/-- What the hyperedge pass leaves in its output array, given the arrays it was entered with. -/
theorem xe_final (c : Dev nD) :
    ((dat0 (F := Ideal) V c).arrAt 3 cfg0.N : S4x64x2048.Idx → EReal)
      = Cert.Spec.XE (V c main_arg0) (V c main_arg1) (V c main_arg2) := by
  exact (dat0 (F := Ideal) V c).arrAt_eq_of_cover 3 (Cert.Spec.XE (V c main_arg0) (V c main_arg1) (V c main_arg2))
    (fun t hf => flushed_eq V c t hf) covered

end Cert.KernelIdeal.Val.Edge

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.IdealVal1.lean ====
/-
  The node pass's value at the ideal instance: the array it leaves holds, at batch b, node n, feature o, the
  hyperedge features weighted by the node's incidence row and summed, over the node's degree, plus the bias —
  whatever hyperedge features and bias row it was entered with.

  Three steps. One tile's arithmetic read at a node p of the tile and a feature o: the product is the sum over the
  2048 hyperedges of incidence row p times hyperedge-feature row o, the divisor the sum of incidence row p, the
  addend the bias entry o. Each input block read at an index is its array at the shifted index: grid point t works
  on batch element t / 8 and node tile t % 8, so row p of its tile is node 1024 (t % 8) + p. The 32 output blocks
  are restrictions of one function of the arrays and tile the output array, so the array ends holding that function.
-/
import proofs.«126929_j11639361372554_1_alg».proof.Proof.IdealRegion1
import proofs.«126929_j11639361372554_1_alg».proof.Proof.Spec
import proofs.«126929_j11639361372554_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val.Node

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Reg

/-! ## The tile's arithmetic read at one node and one feature -/

/-- The contraction's left operand index at result (p, o) and contraction position q: row p … -/
theorem nodeDot_lhs_0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide), dif_pos (show (0 : Fin S1024x2048.rank) ∈ dot_S1024x2048_S64x2048_S1024x64_1_1_0_0_n_n.lhsNonContracting by decide)]
  rfl
/-- … and column q; -/
theorem nodeDot_lhs_1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q
/-- the right operand index: row o … -/
theorem nodeDot_rhs_0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide), dif_pos (show (0 : Fin S64x2048.rank) ∈ dot_S1024x2048_S64x2048_S1024x64_1_1_0_0_n_n.rhsNonContracting by decide)]
  rfl
/-- … and column q. -/
theorem nodeDot_rhs_1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- The product of the incidence tile with the hyperedge features, both contracted along the hyperedge axis, into a
    zero accumulator: at (p, o) the sum over the 2048 hyperedges of row p of the one times row o of the other. -/
theorem nodeDot_apply (a : FVec Ideal S1024x2048 .bf16) (x : FVec Ideal S64x2048 .bf16) (p : Fin 1024) (o : Fin 64) :
    matmul dot_S1024x2048_S64x2048_S1024x64_1_1_0_0_n_n none a x (constant (F := Ideal) S1024x64 .f32 0x00000000#32) (ix2 p o)
      = ∑ e : Fin 2048, a (ix2 p e) * x (ix2 o e) := by
  simp only [matmul]
  rw [Ideal.matmul_constant_zero_apply, ← Equiv.sum_comp (ValueIdx.contrEquiv1 dot_S1024x2048_S64x2048_S1024x64_1_1_0_0_n_n 2048 rfl rfl).symm]
  refine Finset.sum_congr rfl fun k _ => ?_
  have hk := ValueIdx.contrEquiv1_symm_val dot_S1024x2048_S64x2048_S1024x64_1_1_0_0_n_n 2048 rfl rfl k
  have el : dot_S1024x2048_S64x2048_S1024x64_1_1_0_0_n_n.lhsIdx (ix2 p o) ((ValueIdx.contrEquiv1 dot_S1024x2048_S64x2048_S1024x64_1_1_0_0_n_n 2048 rfl rfl).symm k) = ix2 p k := funext fun a => Fin.ext (by
    match a with
    | ⟨0, _⟩ => exact nodeDot_lhs_0 _ _
    | ⟨1, _⟩ => exact (nodeDot_lhs_1 _ _).trans hk)
  have er : dot_S1024x2048_S64x2048_S1024x64_1_1_0_0_n_n.rhsIdx (ix2 p o) ((ValueIdx.contrEquiv1 dot_S1024x2048_S64x2048_S1024x64_1_1_0_0_n_n 2048 rfl rfl).symm k) = ix2 o k := funext fun a => Fin.ext (by
    match a with
    | ⟨0, _⟩ => exact nodeDot_rhs_0 _ _
    | ⟨1, _⟩ => exact (nodeDot_rhs_1 _ _).trans hk)
  rw [el, er]

/-- The node degrees of the tile as the body lays them against the product: the row sums of the incidence tile, as a
    column, repeated along the 64 features; at (p, o) the sum of row p. -/
theorem degreeCol_apply (v : FVec Ideal S1024x2048 .f32) (p : Fin 1024) (o : Fin 64) :
    broadcastTo S1024x64 (shapeCast S1024x1 (multiReduction .add [1] S1024 v 0x00000000#32 reduces_S1024x2048_S1024 (.inl rfl) rfl)
        shapeCasts_S1024_S1024x1) broadcasts_S1024x1_S1024x64 (ix2 p o)
      = ∑ e : Fin 2048, v (ix2 p e) :=
  (Cert.Lib.Column.broadcastTo_a1_ab_apply _ broadcasts_S1024x1_S1024x64 p o).trans
    ((Cert.Lib.Column.shapeCast_a_a1_apply _ shapeCasts_S1024_S1024x1 p (0 : Fin 1)).trans
      (Cert.Lib.Column.rowSum_apply v 0x00000000#32 reduces_S1024x2048_S1024 (.inl rfl) rfl p))

/-- The bias row repeated along the 1024 nodes of the tile: at (p, o) its entry o. -/
theorem biasRows_apply (b : Vec Ideal S1x64 .f32) (p : Fin 1024) (o : Fin 64) :
    broadcastTo S1024x64 (shapeCast S1x64 b shapeCasts_S1x64_S1x64) broadcasts_S1x64_S1024x64 (ix2 p o) = b (ix2 (0 : Fin 1) o) :=
  (broadcastTo_1b_ab_apply _ broadcasts_S1x64_S1024x64 p o).trans (by rw [shapeCast_self])

/-- THE TILE'S RESULT at node p of the tile and feature o: the incidence row p contracted with the hyperedge-feature
    row o, over the row's degree, plus the bias entry o. The casts between [1, a, b] and [a, b] and the change of
    format before the product do not move or change an entry. -/
theorem pay_apply (h : Vec Ideal S1x1024x2048 .f32) (xe : Vec Ideal S1x64x2048 .f32) (b : Vec Ideal S1x64 .f32)
    (p : Fin 1024) (o : Fin 64) :
    k1_pay1 (F := Ideal) h xe b (ix3 (0 : Fin 1) p o)
      = Ideal.div (∑ e : Fin 2048, h (ix3 (0 : Fin 1) p e) * xe (ix3 (0 : Fin 1) o e)) (∑ e : Fin 2048, h (ix3 (0 : Fin 1) p e))
        + b (ix2 (0 : Fin 1) o) := by
  unfold k1_pay1
  refine (shapeCast_ab_1ab_apply _ shapeCasts_S1024x64_S1x1024x64 (0 : Fin 1) p o).trans ?_
  refine (addf_apply _ _ _).trans ?_
  refine congrArg₂ (· + ·) ?_ (biasRows_apply b p o)
  refine (divf_apply _ _ _).trans ?_
  refine congrArg₂ Ideal.div ?_ ?_
  · refine (nodeDot_apply _ _ p o).trans (Finset.sum_congr rfl fun e _ => ?_)
    exact congrArg₂ (· * ·) (shapeCast_1ab_ab_apply h shapeCasts_S1x1024x2048_S1024x2048 p e)
      (shapeCast_1ab_ab_apply xe shapeCasts_S1x64x2048_S64x2048 o e)
  · exact (degreeCol_apply _ p o).trans
      (Finset.sum_congr rfl fun e _ => shapeCast_1ab_ab_apply h shapeCasts_S1x1024x2048_S1024x2048 p e)

/-! ## From the tiles to the array -/

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed block index maps, decided over the 32 grid points: point t works on batch element t / 8 and node tile
    t % 8; the incidence tile and the output tile sit at (t / 8, t % 8, 0), the hyperedge features at (t / 8, 0, 0),
    the bias row at (0, 0). -/
theorem tile_of_point : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val / 8 ∧ win1_3.index t (1 : Fin 3) = t.val % 8 ∧ win1_3.index t (2 : Fin 3) = 0 :=
  (by decide +kernel : ∀ t : Fin grid1.N, _)

/-- Row p, hyperedge e of the incidence tile at point t is the incidence array at batch t / 8, node 1024 (t % 8) + p. -/
theorem incidenceTile_apply (c : Dev nD) (t : Fin cfg1.N) (p : Fin 1024) (e : Fin 2048) (B : Fin 4) (N : Fin 8192)
    (hB : B.val = t.val / 8) (hN : N.val = 1024 * (t.val % 8) + p.val) :
    (iblk1 V c 0 t : Vec Ideal S1x1024x2048 .f32) (ix3 (0 : Fin 1) p e)
      = (V c main_arg1 : S4x8192x2048.Idx → EReal) (ix3 B N e) := by
  obtain ⟨h0, h1, h2, -⟩ := tile_of_point t
  unfold iblk1
  rw [View.read_apply]
  show V c main_arg1 _ = V c main_arg1 _
  congr 1
  funext a
  apply Fin.ext
  match a with
  | ⟨0, _⟩ => show win1_0.index t (0 : Fin 3) * 1 + 1 * 0 = B.val; omega
  | ⟨1, _⟩ => show win1_0.index t (1 : Fin 3) * 1024 + 1 * p.val = N.val; omega
  | ⟨2, _⟩ => show win1_0.index t (2 : Fin 3) * 2048 + 1 * e.val = e.val; omega

/-- Feature o, hyperedge e of the hyperedge-feature block at point t is the stored array at batch t / 8. -/
theorem edgeFeatBlock_apply (c : Dev nD) (t : Fin cfg1.N) (o : Fin 64) (e : Fin 2048) (B : Fin 4)
    (hB : B.val = t.val / 8) :
    (iblk1 V c 1 t : Vec Ideal S1x64x2048 .f32) (ix3 (0 : Fin 1) o e)
      = (V c main_v0 : S4x64x2048.Idx → EReal) (ix3 B o e) := by
  obtain ⟨-, -, -, h0, h1, h2, -⟩ := tile_of_point t
  unfold iblk1
  rw [View.read_apply]
  show V c main_v0 _ = V c main_v0 _
  congr 1
  funext a
  apply Fin.ext
  match a with
  | ⟨0, _⟩ => show win1_1.index t (0 : Fin 3) * 1 + 1 * 0 = B.val; omega
  | ⟨1, _⟩ => show win1_1.index t (1 : Fin 3) * 64 + 1 * o.val = o.val; omega
  | ⟨2, _⟩ => show win1_1.index t (2 : Fin 3) * 2048 + 1 * e.val = e.val; omega

/-- The bias block at any point is the bias row. -/
theorem biasBlock_apply (c : Dev nD) (t : Fin cfg1.N) (o : Fin 64) :
    (iblk1 V c 2 t : Vec Ideal S1x64 .f32) (ix2 (0 : Fin 1) o) = (V c main_v1 : S1x64.Idx → EReal) (ix2 (0 : Fin 1) o) := by
  obtain ⟨-, -, -, -, -, -, h0, h1, -⟩ := tile_of_point t
  unfold iblk1
  rw [View.read_apply]
  show V c main_v1 _ = V c main_v1 _
  congr 1
  funext a
  apply Fin.ext
  match a with
  | ⟨0, _⟩ => show win1_2.index t (0 : Fin 2) * 1 + 1 * 0 = 0; omega
  | ⟨1, _⟩ => show win1_2.index t (1 : Fin 2) * 64 + 1 * o.val = o.val; omega

/-- WHAT POINT t COMPUTES at node p of its tile and feature o is the specification at batch t / 8, node
    1024 (t % 8) + p, feature o: the tile's sums run over the same hyperedges of the same rows of the arrays. -/
theorem tile_apply (c : Dev nD) (t : Fin cfg1.N) (p : Fin 1024) (o : Fin 64) (B : Fin 4) (N : Fin 8192)
    (hB : B.val = t.val / 8) (hN : N.val = 1024 * (t.val % 8) + p.val) :
    k1_pay1 (F := Ideal) (iblk1 V c 0 t) (iblk1 V c 1 t) (iblk1 V c 2 t) (ix3 (0 : Fin 1) p o)
      = Cert.Spec.OUT2 (V c main_arg1) (V c main_v0) (V c main_v1) (ix3 B N o) := by
  refine (pay_apply (iblk1 V c 0 t) (iblk1 V c 1 t) (iblk1 V c 2 t) p o).trans ?_
  unfold Cert.Spec.OUT2 Cert.Spec.degN
  refine congrArg₂ (· + ·) (congrArg₂ Ideal.div ?_ ?_) (biasBlock_apply V c t o)
  · exact Finset.sum_congr rfl fun e _ =>
      congrArg₂ (· * ·) (incidenceTile_apply V c t p e B N hB hN) (edgeFeatBlock_apply V c t o e B hB)
  · exact Finset.sum_congr rfl fun e _ => incidenceTile_apply V c t p e B N hB hN

/-- WHAT POINT t WRITES BACK is its block of the specification's array. -/
theorem flushed_eq (c : Dev nD) (t : Fin cfg1.N) :
    (dat1 (F := Ideal) V c).flushed 3 t
      = ((cfg1.win 3).blk t).view.read (Elt Ideal) (Cert.Spec.OUT2 (V c main_arg1) (V c main_v0) (V c main_v1)) := by
  show (cfg1.win 3).cut (grid1.coords t) ((dat1 (F := Ideal) V c).after 3 t) = _
  rw [after1_3]
  unfold out1_3
  rw [View.canon_unit_zero zeros3]
  simp only [View.ld_unit_zero (S := S1x1024x2048) zeros3, View.ld_unit_zero (S := S1x64x2048) zeros3,
    View.ld_unit_zero (S := S1x64) zeros2]
  obtain ⟨-, -, -, -, -, -, -, -, h0, h1, h2⟩ := tile_of_point t
  funext j
  have hj0 : (j 0).val < 1 := (j 0).isLt
  have hj1 : (j 1).val < 1024 := (j 1).isLt
  have hj2 : (j 2).val < 64 := (j 2).isLt
  have ht : t.val < 32 := Nat.lt_of_lt_of_eq t.isLt N_1
  rw [View.read_apply]
  -- the block's index (0, p, o) inside the tile, and its place (t / 8, 1024 (t % 8) + p, o) in the array
  have hx : (cfg1.win 3).xinj (grid1.coords t) j = ix3 (0 : Fin 1) (⟨(j 1).val, hj1⟩ : Fin 1024) (⟨(j 2).val, hj2⟩ : Fin 64) :=
    funext fun a => Fin.ext (by
      match a with
      | ⟨0, _⟩ => show (j 0).val = 0; omega
      | ⟨1, _⟩ => rfl
      | ⟨2, _⟩ => rfl)
  have he : (ix3 (⟨t.val / 8, by omega⟩ : Fin 4) (⟨1024 * (t.val % 8) + (j 1).val, by omega⟩ : Fin 8192) (⟨(j 2).val, hj2⟩ : Fin 64) : S4x8192x64.Idx)
      = ((cfg1.win 3).blk t).view.emb j :=
    funext fun a => Fin.ext (by
      match a with
      | ⟨0, _⟩ => show t.val / 8 = win1_3.index t (0 : Fin 3) * 1 + 1 * (j 0).val; omega
      | ⟨1, _⟩ => show 1024 * (t.val % 8) + (j 1).val = win1_3.index t (1 : Fin 3) * 1024 + 1 * (j 1).val; omega
      | ⟨2, _⟩ => show (j 2).val = win1_3.index t (2 : Fin 3) * 64 + 1 * (j 2).val; omega)
  refine (congrArg (k1_pay1 (F := Ideal) (iblk1 V c 0 t) (iblk1 V c 1 t) (iblk1 V c 2 t)) hx).trans ?_
  refine (tile_apply V c t ⟨(j 1).val, hj1⟩ ⟨(j 2).val, hj2⟩ ⟨t.val / 8, by omega⟩ ⟨1024 * (t.val % 8) + (j 1).val, by omega⟩ rfl rfl).trans ?_
  exact congrArg (Cert.Spec.OUT2 (V c main_arg1) (V c main_v0) (V c main_v1)) he

/-- An index of the array lies in point t's block iff each coordinate lies in the block's range on its axis. -/
theorem mem_blk (t : Fin cfg1.N) (i : S4x8192x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v2).slice (win1_3.rect t)).set ↔ _
  rw [View.set_slice_whole, Rect.mem_set_unit]
  exact Iff.rfl

/-- The 32 blocks tile the array: batch b, node n lies in the block of point 8 b + n / 1024. -/
theorem covered (i : S4x8192x64.Idx) :
    ∃ t : Fin cfg1.N, (cfg1.win 3).flush t = true ∧ i ∈ ((cfg1.win 3).blk t).view.set := by
  have hi0 : (i 0).val < 4 := (i 0).isLt
  have hi1 : (i 1).val < 8192 := (i 1).isLt
  have hi2 : (i 2).val < 64 := (i 2).isLt
  have hN : cfg1.N = 32 := N_1
  let t : Fin cfg1.N := ⟨8 * (i 0).val + (i 1).val / 1024, by rw [hN]; omega⟩
  have htv : t.val = 8 * (i 0).val + (i 1).val / 1024 := rfl
  obtain ⟨-, -, -, -, -, -, -, -, h0, h1, h2⟩ := tile_of_point t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- What the node pass leaves in its output array, given the arrays it was entered with. -/
theorem out_final (c : Dev nD) :
    ((dat1 (F := Ideal) V c).arrAt 3 cfg1.N : S4x8192x64.Idx → EReal)
      = Cert.Spec.OUT2 (V c main_arg1) (V c main_v0) (V c main_v1) :=
  (dat1 (F := Ideal) V c).arrAt_eq_of_cover 3 (Cert.Spec.OUT2 (V c main_arg1) (V c main_v0) (V c main_v1))
    (fun t _ => flushed_eq V c t) covered

end Cert.KernelIdeal.Val.Node

end
-- ==== Proof.IdealKernelValue.lean ====
/-
  The kernel's result at the ideal instance is the specification's: the node pass is entered with the incidence array
  as launched, the hyperedge features the first pass left, and the bias laid out as a 1 × 64 row; its output is the
  specification's node pass of those, and the first pass's output the specification's hyperedge features.
-/
import proofs.«126929_j11639361372554_1_alg».proof.Proof.IdealRunValue
import proofs.«126929_j11639361372554_1_alg».proof.Proof.IdealVal0
import proofs.«126929_j11639361372554_1_alg».proof.Proof.IdealVal1
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Reg

variable (m : (ℓ : Loc nD τ sig) → Buf (Elt Ideal) ℓ)

/-- The node pass finds the incidence array as launched: neither the first pass nor the reshape writes it. -/
theorem Vin1_arg1 (c : Dev nD) : Vin1 m c main_arg1 = m ((c.tc : Thread nD τ).loc main_arg1) :=
  (Gen.V2_of m (outsOf m) c main_arg1 (by decide)).trans ((Gen.V1_of m (outsOf m) c main_arg1 (by decide)).trans rfl)

/-- It finds the hyperedge-feature array at what the first pass's write-backs left. -/
theorem Vin1_v0 (c : Dev nD) : Vin1 m c main_v0 = (dat0 (Vin0 m) c).arrAt 3 cfg0.N :=
  (Gen.V2_of m (outsOf m) c main_v0 (by decide)).trans (hF0 m c 3).symm

/-- It finds the bias as a 1 × 64 row: entry (0, o) is the bias's entry o (same position in row-major order). -/
theorem Vin1_v1 (c : Dev nD) :
    (Vin1 m c main_v1 : S1x64.Idx → EReal) = fun j => (m ((c.tc : Thread nD τ).loc main_arg3) : S64.Idx → EReal) (ix1 (j 1)) := by
  funext j
  have e : (Vin1 m c main_v1 : S1x64.Idx → EReal) = shapeCast S1x64 (U1 m c main_arg3 : S64.Idx → EReal) shapeCasts_S64_S1x64 := by
    show StableHlo.after hostOps1 (U1 m c) (Proc.devRef .tc main_v1) = _
    after_results; rfl
  rw [e]
  refine (shapeCast_apply _ shapeCasts_S64_S1x64 j (ix1 (j 1)) ?_).trans ?_
  · rw [Shape.rowMajor_val_one, Shape.rowMajor_val_two]
    have h0 : (j 0).val < 1 := (j 0).isLt
    show (j 1).val = (j 0).val * 64 + (j 1).val
    omega
  · exact congrFun (Gen.V1_of m (outsOf m) c main_arg3 (by decide)) _

/-- The result array after the run is the specification's result of the four argument arrays. -/
theorem kernel_value (c : Dev nD) :
    ((dat1 (F := Ideal) (Vin1 m) c).arrAt 3 cfg1.N : S4x8192x64.Idx → EReal)
      = Cert.Spec.OUT (m ((c.tc : Thread nD τ).loc main_arg0)) (m ((c.tc : Thread nD τ).loc main_arg1))
          (m ((c.tc : Thread nD τ).loc main_arg2)) (m ((c.tc : Thread nD τ).loc main_arg3)) := by
  rw [Node.out_final (Vin1 m) c, Vin1_arg1, Vin1_v0, Edge.xe_final (Vin0 m) c, Vin1_v1]
  rfl

end Cert.KernelIdeal.Val

end
-- ==== Proof.RefValue.lean ====
/-
  The reference at the ideal instance, stage by stage, is the specification: its three contractions and two
  reductions are the specification's sums, its two divisions the specification's quotients.
-/
import proofs.«126929_j11639361372554_1_alg».proof.Proof.Gen.ReferenceIdeal.Run
import proofs.«126929_j11639361372554_1_alg».proof.Proof.Gen.ReferenceIdeal.Read
import proofs.«126929_j11639361372554_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## The stages' operand indices at explicit coordinates

Each stage reads its operands at an index computed from the result's index and, for a contraction or a reduction,
the summation variable. At a result index given by its coordinates these are again indices given by coordinates. -/

/-- The projection's left operand: the node's feature row, at the summed feature. -/
theorem lidx0_at (b : Fin 4) (n : Fin 8192) (o k : Fin 64) : lidx_main_v0 (ix3 b n o) k = ix3 b n k :=
  funext fun a => by match a with | ⟨0, _⟩ => rfl | ⟨1, _⟩ => rfl | ⟨2, _⟩ => rfl

/-- The projection's right operand: the projection matrix at (summed feature, result feature). -/
theorem ridx0_at (b : Fin 4) (n : Fin 8192) (o k : Fin 64) : ridx_main_v0 (ix3 b n o) k = ix2 k o :=
  funext fun a => by match a with | ⟨0, _⟩ => rfl | ⟨1, _⟩ => rfl

/-- The column sum's operand: the incidence array at (batch, summed node, hyperedge). -/
theorem idx1_at (b : Fin 4) (e : Fin 2048) (k : Fin 8192) : idx_main_v1 (ix2 b e) k = ix3 b k e :=
  funext fun a => by match a with | ⟨0, _⟩ => rfl | ⟨1, _⟩ => rfl | ⟨2, _⟩ => rfl

/-- The hyperedge contraction's left operand: the incidence array at (batch, summed node, hyperedge). -/
theorem lidx2_at (b : Fin 4) (e : Fin 2048) (o : Fin 64) (k : Fin 8192) : lidx_main_v2 (ix3 b e o) k = ix3 b k e :=
  funext fun a => by match a with | ⟨0, _⟩ => rfl | ⟨1, _⟩ => rfl | ⟨2, _⟩ => rfl

/-- The hyperedge contraction's right operand: the projected features at (batch, summed node, feature). -/
theorem ridx2_at (b : Fin 4) (e : Fin 2048) (o : Fin 64) (k : Fin 8192) : ridx_main_v2 (ix3 b e o) k = ix3 b k o :=
  funext fun a => by match a with | ⟨0, _⟩ => rfl | ⟨1, _⟩ => rfl | ⟨2, _⟩ => rfl

/-- The hyperedge degree is broadcast along the feature axis: the two broadcasts read it at (batch, hyperedge). -/
theorem idx34_at (b : Fin 4) (e : Fin 2048) (o : Fin 64) : idx_main_v3 (idx_main_v4 (ix3 b e o)) = ix2 b e :=
  funext fun a => by match a with | ⟨0, _⟩ => rfl | ⟨1, _⟩ => rfl

/-- The row sum's operand: the incidence array at (batch, node, summed hyperedge). -/
theorem idx6_at (b : Fin 4) (n : Fin 8192) (k : Fin 2048) : idx_main_v6 (ix2 b n) k = ix3 b n k :=
  funext fun a => by match a with | ⟨0, _⟩ => rfl | ⟨1, _⟩ => rfl | ⟨2, _⟩ => rfl

/-- The node contraction's left operand: the incidence array at (batch, node, summed hyperedge). -/
theorem lidx7_at (b : Fin 4) (n : Fin 8192) (o : Fin 64) (k : Fin 2048) : lidx_main_v7 (ix3 b n o) k = ix3 b n k :=
  funext fun a => by match a with | ⟨0, _⟩ => rfl | ⟨1, _⟩ => rfl | ⟨2, _⟩ => rfl

/-- The node contraction's right operand: the hyperedge features at (batch, summed hyperedge, feature). -/
theorem ridx7_at (b : Fin 4) (n : Fin 8192) (o : Fin 64) (k : Fin 2048) : ridx_main_v7 (ix3 b n o) k = ix3 b k o :=
  funext fun a => by match a with | ⟨0, _⟩ => rfl | ⟨1, _⟩ => rfl | ⟨2, _⟩ => rfl

/-- The node degree is broadcast along the feature axis: the two broadcasts read it at (batch, node). -/
theorem idx89_at (b : Fin 4) (n : Fin 8192) (o : Fin 64) : idx_main_v8 (idx_main_v9 (ix3 b n o)) = ix2 b n :=
  funext fun a => by match a with | ⟨0, _⟩ => rfl | ⟨1, _⟩ => rfl

/-- The bias is broadcast along batch and node: the two broadcasts read it at the feature. -/
theorem idx1112_at (b : Fin 4) (n : Fin 8192) (o : Fin 64) : idx_main_v11 (idx_main_v12 (ix3 b n o)) = ix1 o :=
  funext fun a => by match a with | ⟨0, _⟩ => rfl

/-! ## The stages as the specification's functions -/

/-- The first contraction is the projection: the sum over the 64 input features of the node's feature times the
    projection matrix's entry. -/
theorem proj_at (x0 : (⟨S4x8192x64, .f32⟩ : BufTy).Contents (Elt Ideal)) (x2 : (⟨S64x64, .f32⟩ : BufTy).Contents (Elt Ideal))
    (b : Fin 4) (n : Fin 8192) (o : Fin 64) :
    val_main_v0 (F := Ideal) x0 x2 (ix3 b n o) = Cert.Spec.proj x0 x2 b n o := by
  rw [val_main_v0_apply]
  unfold Cert.Spec.proj
  refine Finset.sum_congr rfl fun k _ => ?_
  rw [lidx0_at, ridx0_at]

/-- The reduction over the node axis, started at the zero word, is the hyperedge's degree: zero plus the column sum. -/
theorem degE_at (x1 : (⟨S4x8192x2048, .f32⟩ : BufTy).Contents (Elt Ideal)) (b : Fin 4) (e : Fin 2048) :
    val_main_v1 (F := Ideal) x1 (ix2 b e) = Cert.Spec.degE x1 b e := by
  rw [val_main_v1_apply, val_main_cst_apply, Ideal.ofBits_def, Ideal.ofBits_zero_f32, zero_add]
  unfold Cert.Spec.degE
  refine Finset.sum_congr rfl fun k _ => ?_
  rw [idx1_at]

/-- The second contraction over the degree's broadcast is the hyperedge's features, stored (batch, hyperedge, feature):
    the incidence-weighted sum of the projected features over the 8192 nodes, divided by the hyperedge's degree. -/
theorem edgeFeat_at (x0 : (⟨S4x8192x64, .f32⟩ : BufTy).Contents (Elt Ideal)) (x1 : (⟨S4x8192x2048, .f32⟩ : BufTy).Contents (Elt Ideal))
    (x2 : (⟨S64x64, .f32⟩ : BufTy).Contents (Elt Ideal)) (b : Fin 4) (e : Fin 2048) (o : Fin 64) :
    val_main_v5 (F := Ideal) x0 x1 x2 (ix3 b e o) = Cert.Spec.edgeFeat x0 x1 x2 b o e := by
  rw [val_main_v5_apply, Ideal.hostDivf_def, val_main_v2_apply, val_main_v4_apply, val_main_v3_apply, idx34_at, degE_at]
  unfold Cert.Spec.edgeFeat
  refine congrArg (fun s => Ideal.div s (Cert.Spec.degE x1 b e)) (Finset.sum_congr rfl fun k _ => ?_)
  rw [lidx2_at, ridx2_at, proj_at]

/-- The reduction over the hyperedge axis, started at the zero word, is the node's degree: zero plus the row sum. -/
theorem degN_at (x1 : (⟨S4x8192x2048, .f32⟩ : BufTy).Contents (Elt Ideal)) (b : Fin 4) (n : Fin 8192) :
    val_main_v6 (F := Ideal) x1 (ix2 b n) = Cert.Spec.degN x1 b n := by
  rw [val_main_v6_apply, val_main_cst_0_apply, Ideal.ofBits_def, Ideal.ofBits_zero_f32, zero_add]
  unfold Cert.Spec.degN
  refine Finset.sum_congr rfl fun k _ => ?_
  rw [idx6_at]

/-- The reference's last stage, as a function of the four argument arrays, is the specification's result. -/
theorem ref_eq (x0 : (⟨S4x8192x64, .f32⟩ : BufTy).Contents (Elt Ideal)) (x1 : (⟨S4x8192x2048, .f32⟩ : BufTy).Contents (Elt Ideal))
    (x2 : (⟨S64x64, .f32⟩ : BufTy).Contents (Elt Ideal)) (x3 : (⟨S64, .f32⟩ : BufTy).Contents (Elt Ideal)) :
    val_main_v13 (F := Ideal) x0 x1 x2 x3 = Cert.Spec.OUT x0 x1 x2 x3 := by
  funext j
  obtain ⟨b, n, o, rfl⟩ : ∃ (b : Fin 4) (n : Fin 8192) (o : Fin 64), j = ix3 b n o := ⟨j 0, j 1, j 2, eq_ix3 j⟩
  -- the third contraction over the node degree's broadcast, plus the bias's broadcast
  rw [val_main_v13_apply, Ideal.addf_def, val_main_v10_apply, Ideal.hostDivf_def, val_main_v7_apply, val_main_v9_apply,
    val_main_v8_apply, idx89_at, degN_at, val_main_v12_apply, val_main_v11_apply, idx1112_at]
  -- the specification at (batch, node, feature): the stored hyperedge features are read at (batch, feature, hyperedge)
  show _ = Ideal.div (∑ e : Fin 2048, x1 (ix3 b n e) * Cert.Spec.edgeFeat x0 x1 x2 b o e) (Cert.Spec.degN x1 b n) + x3 (ix1 o)
  refine congrArg (fun s => Ideal.div s (Cert.Spec.degN x1 b n) + x3 (ix1 o)) (Finset.sum_congr rfl fun k _ => ?_)
  rw [lidx7_at, ridx7_at, edgeFeat_at]

end Cert.ReferenceIdeal.RefValue

end
-- ==== Proof.lean ====
/-
  The certificate of a hypergraph convolution against its jnp reference, over the extended reals.

  Both programs compute, for batch b, node n, feature o,
      ( ∑ₑ H[b,n,e] · ( ∑ₙ′ H[b,n′,e] · (x[b,n′,·]·θ[·,o]) ) / ( ∑ₙ′ H[b,n′,e] ) ) / ( ∑ₑ H[b,n,e] ) + bias[o].
  The reference does so with whole-array contractions and reductions. The kernel does it in two passes: a first pass
  that, per batch element, accumulates the inner sums tile by tile over the nodes (eight tiles of 1024) in two
  buffers kept across grid points and stores their quotient at the last tile, and a second pass that contracts each
  tile of nodes with the stored quotients, divides by the row sums and adds the bias. The two differ only in how the
  finite sums are grouped and in which factor of a product comes first, which the extended reals do not see; the
  quotients are taken of equal arguments, so nothing is asked of the divisors, and the precondition is not used.

  The frames of the two kernel programs come from the program's conditional frame, given each pass's record
  (the proof data, the body's run case by case, and the entry and exit of its arrays); the reference's frame is its
  run with the result dropped; the idealization rewrote nothing, so its claim is trivial.
-/
import proofs.«126929_j11639361372554_1_alg».proof.Defs
import proofs.«126929_j11639361372554_1_alg».proof.Proof.Gen.Kernel
import proofs.«126929_j11639361372554_1_alg».proof.Proof.Gen.KernelIdeal
import proofs.«126929_j11639361372554_1_alg».proof.Proof.Gen.ReferenceIdeal
import proofs.«126929_j11639361372554_1_alg».proof.Proof.Gen.Pre_finite_inputs
import proofs.«126929_j11639361372554_1_alg».proof.Proof.Gen.ReferenceIdeal.Run
import proofs.«126929_j11639361372554_1_alg».proof.Proof.Gen.ReferenceIdeal.Read
import proofs.«126929_j11639361372554_1_alg».proof.Proof.BitsRun
import proofs.«126929_j11639361372554_1_alg».proof.Proof.IdealRun
import proofs.«126929_j11639361372554_1_alg».proof.Proof.IdealKernelValue
import proofs.«126929_j11639361372554_1_alg».proof.Proof.RefValue

noncomputable section

namespace Cert.Proof

open Idealize.ShloMosaic Idealize.SL.Sem

theorem frame_k : Cert.frame_Kernel := fun m ρ _ => Cert.Kernel.Reg.frame m ρ

theorem frame_ki : Cert.frame_KernelIdeal := fun m ρ _ => Cert.KernelIdeal.Reg.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's result of the (agreeing) argument arrays. -/
theorem algebraic : Cert.algebraic_KernelIdeal_ReferenceIdeal := by
  intro m ρ m' ρ' _ hagree
  refine ⟨fun c => Cert.Spec.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.kernel_value m c), (h c).2⟩)
      (Cert.KernelIdeal.Reg.run_value m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
